-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x64, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x64, .f32⟩
  | .hbm, ⟨75, _⟩ => ⟨S3300000x1, .f32⟩
  | .hbm, ⟨76, _⟩ => ⟨S3300000x64, .f32⟩
  | .hbm, ⟨77, _⟩ => ⟨S3300000x64, .f32⟩
  | .hbm, ⟨78, _⟩ => ⟨S_, .f32⟩
  | .hbm, ⟨79, _⟩ => ⟨S100000x64, .f32⟩
  | .hbm, ⟨80, _⟩ => ⟨S3300000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x64, .f32⟩
  | 8 => ⟨S100000x64, .f32⟩
  | 9 => ⟨S100000x64, .f32⟩
  | 10 => ⟨S_, .f32⟩
  | 11 => ⟨S100000, .f32⟩
  | 12 => ⟨S100000x1, .f32⟩
  | 13 => ⟨S100000x1, .f32⟩
  | 14 => ⟨S100000x64, .f32⟩
  | 15 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  The four dense stages of a two-layer graph convolution, as whole-array functions on the extended reals.

  A layer is: a matrix product X · W, a neighbourhood sum over the edges (shared text of both programs, never opened
  here), then a bias row added to every node's row and either a rectifier (layer one) or a row-wise log-softmax
  (layer two). Each dense stage is written index by index:

    product      (p, q) ↦ Σ_k X[p,k] · W[k,q]
    biasRelu     (p, j) ↦ max (A[p,j] + b[j]) 0
    logSoftmax   (p, j) ↦ (z_j − M) − log Σ_k exp (z_k − M),   z_k = A[p,k] + b[k],   M = max over k of z_k (from −∞)

  The bias comes either as a vector [n] or as the one-row matrix [1, n] a kernel's window holds; the two readings
  of the same numbers are related at the end.
-/
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx

variable {M K N n : ℕ}

/-- The matrix product at one entry. -/
def productAt (x : FVec Ideal ⟨2, ![M, K]⟩ .f32) (w : FVec Ideal ⟨2, ![K, N]⟩ .f32) (p : Fin M) (q : Fin N) : EReal :=
  ∑ k : Fin K, x (ix2 p k) * w (ix2 k q)

/-- The matrix product X · W. -/
def product (x : FVec Ideal ⟨2, ![M, K]⟩ .f32) (w : FVec Ideal ⟨2, ![K, N]⟩ .f32) : FVec Ideal ⟨2, ![M, N]⟩ .f32 :=
  fun i => productAt x w (i 0) (i 1)

theorem product_apply (x : FVec Ideal ⟨2, ![M, K]⟩ .f32) (w : FVec Ideal ⟨2, ![K, N]⟩ .f32) (p : Fin M) (q : Fin N) :
    product x w (ix2 p q) = productAt x w p q := rfl

/-- The float zero and the float minus infinity, kept as their words. -/
abbrev zeroW : EReal := Ideal.ofBits .f32 0x00000000#32
abbrev negInfW : EReal := Ideal.ofBits .f32 0xFF800000#32

/-- Bias and rectifier at one entry, the bias entry given. -/
def reluAt (a : EReal) (b : EReal) : EReal := max (a + b) zeroW

/-- Bias row [1, n] added to every row, then the rectifier. -/
def biasReluRow (a : FVec Ideal ⟨2, ![M, n]⟩ .f32) (brow : FVec Ideal ⟨2, ![1, n]⟩ .f32) : FVec Ideal ⟨2, ![M, n]⟩ .f32 :=
  fun i => reluAt (a i) (brow (ix2 (0 : Fin 1) (i 1)))

/-- Bias vector [n] added to every row, then the rectifier. -/
def biasRelu (a : FVec Ideal ⟨2, ![M, n]⟩ .f32) (b : FVec Ideal ⟨1, ![n]⟩ .f32) : FVec Ideal ⟨2, ![M, n]⟩ .f32 :=
  fun i => reluAt (a i) (b (ix1 (i 1)))

theorem biasReluRow_apply (a : FVec Ideal ⟨2, ![M, n]⟩ .f32) (brow : FVec Ideal ⟨2, ![1, n]⟩ .f32) (p : Fin M) (j : Fin n) :
    biasReluRow a brow (ix2 p j) = reluAt (a (ix2 p j)) (brow (ix2 (0 : Fin 1) j)) := rfl

theorem biasRelu_apply (a : FVec Ideal ⟨2, ![M, n]⟩ .f32) (b : FVec Ideal ⟨1, ![n]⟩ .f32) (p : Fin M) (j : Fin n) :
    biasRelu a b (ix2 p j) = reluAt (a (ix2 p j)) (b (ix1 j)) := rfl

/-- The log-softmax of one row z : Fin n → EReal, at column j: the row shifted by its maximum, less the logarithm of the
    shifted row's exponential sum. -/
def logSoftmaxAt (z : Fin n → EReal) (j : Fin n) : EReal :=
  (z j - (Finset.univ : Finset (Fin n)).fold max negInfW z)
    - Ideal.log (∑ k : Fin n, Ideal.exp (z k - (Finset.univ : Finset (Fin n)).fold max negInfW z))

/-- Bias row [1, n] added to every row, then the row-wise log-softmax. -/
def logSoftmaxRow (a : FVec Ideal ⟨2, ![M, n]⟩ .f32) (brow : FVec Ideal ⟨2, ![1, n]⟩ .f32) : FVec Ideal ⟨2, ![M, n]⟩ .f32 :=
  fun i => logSoftmaxAt (fun k => a (ix2 (i 0) k) + brow (ix2 (0 : Fin 1) k)) (i 1)

/-- Bias vector [n] added to every row, then the row-wise log-softmax. -/
def logSoftmax (a : FVec Ideal ⟨2, ![M, n]⟩ .f32) (b : FVec Ideal ⟨1, ![n]⟩ .f32) : FVec Ideal ⟨2, ![M, n]⟩ .f32 :=
  fun i => logSoftmaxAt (fun k => a (ix2 (i 0) k) + b (ix1 k)) (i 1)

theorem logSoftmaxRow_apply (a : FVec Ideal ⟨2, ![M, n]⟩ .f32) (brow : FVec Ideal ⟨2, ![1, n]⟩ .f32) (p : Fin M) (j : Fin n) :
    logSoftmaxRow a brow (ix2 p j) = logSoftmaxAt (fun k => a (ix2 p k) + brow (ix2 (0 : Fin 1) k)) j := rfl

theorem logSoftmax_apply (a : FVec Ideal ⟨2, ![M, n]⟩ .f32) (b : FVec Ideal ⟨1, ![n]⟩ .f32) (p : Fin M) (j : Fin n) :
    logSoftmax a b (ix2 p j) = logSoftmaxAt (fun k => a (ix2 p k) + b (ix1 k)) j := rfl

/-- A vector reshaped to one row, read at (0, j), is the vector at j. -/
theorem row_of_vec (b : FVec Ideal ⟨1, ![n]⟩ .f32) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- With the bias row a reshaped vector, the row forms are the vector forms. -/
theorem biasReluRow_of_vec (a : FVec Ideal ⟨2, ![M, n]⟩ .f32) (b : FVec Ideal ⟨1, ![n]⟩ .f32)
    (h : (⟨1, ![n]⟩ : Shape).ShapeCasts ⟨2, ![1, n]⟩) :
    biasReluRow a (shapeCast ⟨2, ![1, n]⟩ b h) = biasRelu a b := by
  funext i
  obtain ⟨p, j, rfl⟩ : ∃ (p : Fin M) (j : Fin n), i = ix2 p j := ⟨i 0, i 1, eq_ix2 i⟩
  rw [biasReluRow_apply, biasRelu_apply, row_of_vec]

theorem logSoftmaxRow_of_vec (a : FVec Ideal ⟨2, ![M, n]⟩ .f32) (b : FVec Ideal ⟨1, ![n]⟩ .f32)
    (h : (⟨1, ![n]⟩ : Shape).ShapeCasts ⟨2, ![1, n]⟩) :
    logSoftmaxRow a (shapeCast ⟨2, ![1, n]⟩ b h) = logSoftmax a b := by
  funext i
  obtain ⟨p, j, rfl⟩ : ∃ (p : Fin M) (j : Fin n), i = ix2 p j := ⟨i 0, i 1, eq_ix2 i⟩
  rw [logSoftmaxRow_apply, logSoftmax_apply]
  refine congrArg (fun z => logSoftmaxAt z j) (funext fun k => ?_)
  rw [row_of_vec]

end Cert.Gcn

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Region0.lean ====
/-
  Region 0: the first layer's transform H1 = X · W1, computed 5000 rows at a time.

  Grid point t (of 20) stages rows 5000·t … 5000·t + 4999 of X and the whole of W1, multiplies them on the matrix unit into a
  zero accumulator (the narrowing of both operands to bf16 is the identity on the extended reals) and writes the
  5000 × 16 result back as rows 5000·t … of H1. Entry (p, q) of that block is Σ_k X[5000·t + p, k] · W1[k, q], which is
  entry (5000·t + p, q) of the whole product; the twenty blocks tile the array, so the array ends holding X · W1.
-/
import proofs.«135939_j43782896616158_1_alg».proof.Proof.Gen.KernelIdeal.Frame
import proofs.«135939_j43782896616158_1_alg».proof.Proof.Spec
import proofs.«135939_j43782896616158_1_alg».proof.Proof.LibPlainDot
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed dimension numbers are those of a plain M×K by K×N product. -/
theorem dims_plain : dot_S5000x128_S128x16_S5000x16_1_0_0_1_n_n = DotDims.plain 5000 128 16 := rfl

/-- The body's stored value at (p, q): the product's entry. -/
theorem stored_apply (xb : FVec Ideal S5000x128 .f32) (wb : FVec Ideal S128x16 .f32) (p : Fin 5000) (q : Fin 16) :
    k0_pay1 (F := Ideal) xb wb (ix2 p q) = Cert.Gcn.productAt xb wb p q := by
  unfold k0_pay1
  show FloatOps.matmul dot_S5000x128_S128x16_S5000x16_1_0_0_1_n_n none xb wb (constant S5000x16 .f32 0x00000000#32) (ix2 p q) = _
  rw [dims_plain]
  exact Cert.PlainDot.matmul_zero_apply none xb wb p q

/-- The stored block of a point whose left block is rows 5000·t … of X and whose right block is W, at block index y,
    is the whole product at the array index i with i₀ = 5000·t + y₀, i₁ = y₁. -/
theorem stored_eq_product (X : FVec Ideal S100000x128 .f32) (W : FVec Ideal S128x16 .f32)
    (xb : Vec Ideal S5000x128 .f32) (wb : Vec Ideal S128x16 .f32) (t : ℕ)
    (hx : ∀ (r : Fin 5000) (k : Fin 128) (g : Fin 100000), g.val = 5000 * t + r.val → xb (ix2 r k) = X (ix2 g k))
    (hw : ∀ (k : Fin 128) (q : Fin 16), wb (ix2 k q) = W (ix2 k q))
    (y : S5000x16.Idx) (i : S100000x16.Idx) (h0 : (i 0).val = 5000 * t + (y 0).val) (h1 : (i 1).val = (y 1).val) :
    k0_pay1 (F := Ideal) xb wb y = Cert.Gcn.product X W i := by
  obtain ⟨r, q, rfl⟩ : ∃ (r : Fin 5000) (q : Fin 16), y = ix2 r q := ⟨y 0, y 1, eq_ix2 y⟩
  obtain ⟨g, q', rfl⟩ : ∃ (g : Fin 100000) (q' : Fin 16), i = ix2 g q' := ⟨i 0, i 1, eq_ix2 i⟩
  have hq : q' = q := Fin.ext h1
  rw [stored_apply, Cert.Gcn.product_apply, hq]
  unfold Cert.Gcn.productAt
  exact Finset.sum_congr rfl fun k _ => by rw [hx r k g h0, hw k q]

/-- Where the three windows' blocks sit, decided over the twenty points: the left operand's and the result's block
    index on the row axis is the point's number, every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the region's two operand arrays. -/
theorem flushed_eq (c : Dev nD) (t : Fin cfg0.N) :
    (dat0 (F := Ideal) V c).flushed 2 t
      = ((cfg0.win 2).blk t).view.read (Elt Ideal) (Cert.Gcn.product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  obtain ⟨e00, e01, e10, e11, e20, e21⟩ := block_indices t
  funext j
  refine stored_eq_product (V c main_arg0) (V c main_arg2) (iblk0 V c 0 t) (iblk0 V c 1 t) t.val ?_ ?_ j
    (((cfg0.win 2).blk t).view.emb j) ?_ ?_
  · intro r k g hg
    show V c main_arg0 (((cfg0.win 0).blk t).view.emb (ix2 r k)) = V c main_arg0 (ix2 g k)
    refine congrArg (V c main_arg0) (funext fun a => Fin.ext ?_)
    match a with
    | ⟨0, _⟩ => show win0_0.index t (0 : Fin 2) * 5000 + 1 * r.val = g.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  · show win0_2.index t (0 : Fin 2) * 5000 + 1 * (j 0).val = 5000 * t.val + (j 0).val; omega
  · show win0_2.index t (1 : Fin 2) * 16 + 1 * (j 1).val = (j 1).val; omega

/-- An index of the result array is in point t's block iff its row is among the block's 5000 rows. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the result array lies in the block of the point numbered by its row over 5000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  refine ⟨⟨(i 0).val / 5000, by rw [hN]; omega⟩, flush0_2 _, ?_⟩
  rw [mem_block]
  obtain ⟨-, -, -, -, e20, e21⟩ := block_indices ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e21]; omega

/-- The result array after the region: the product of the region's two operand arrays. -/
theorem value (c : Dev nD) :
    (dat0 (F := Ideal) V c).arrAt 2 cfg0.N = Cert.Gcn.product (V c main_arg0) (V c main_arg2) :=
  (dat0 V c).arrAt_eq_of_cover 2 _ (fun t _ => flushed_eq V c t) covered

end Cert.KernelIdeal.Region0

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Region1.lean ====
/-
  Region 1: the first layer's bias and rectifier, computed 5000 rows at a time.

  Grid point t (of 20) stages rows 5000·t … 5000·t + 4999 of the aggregated array A and the whole bias row B : [1, 16],
  adds the row to every staged row, takes the maximum with zero, and writes the 5000 × 16 result back as rows 5000·t … of
  the result. Entry (p, j) of that block is max (A[5000·t + p, j] + B[0, j]) 0, which is entry (5000·t + p, j) of the
  whole-array bias-and-rectifier; the twenty blocks tile the array, so the array ends holding it.
-/
import proofs.«135939_j43782896616158_1_alg».proof.Proof.Gen.KernelIdeal.Frame
import proofs.«135939_j43782896616158_1_alg».proof.Proof.Spec
import proofs.«135939_j43782896616158_1_alg».proof.Proof.LibRowBias
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, j): the staged entry plus the bias row's entry j, then the maximum with zero. -/
theorem stored_apply (xb : Vec Ideal S5000x16 .f32) (bb : Vec Ideal S1x16 .f32) (p : Fin 5000) (j : Fin 16) :
    k1_pay1 (F := Ideal) xb bb (ix2 p j) = Cert.Gcn.reluAt (xb (ix2 p j)) (bb (ix2 (0 : Fin 1) j)) := by
  unfold k1_pay1
  show max (shapeCast S5000x16 xb _ (ix2 p j) + broadcastTo S5000x16 (shapeCast S1x16 bb _) _ (ix2 p j))
      (Ideal.ofBits .f32 0x00000000#32) = _
  rw [shapeCast_self, shapeCast_self, Cert.RowBias.rows_apply]
  rfl

/-- The stored block of a point whose first block is rows 5000·t … of A and whose second block is the row B, at block
    index y, is the whole-array bias-and-rectifier at the array index i with i₀ = 5000·t + y₀, i₁ = y₁. -/
theorem stored_eq_biasReluRow (A : FVec Ideal S100000x16 .f32) (B : FVec Ideal S1x16 .f32)
    (xb : Vec Ideal S5000x16 .f32) (bb : Vec Ideal S1x16 .f32) (t : ℕ)
    (hx : ∀ (r : Fin 5000) (j : Fin 16) (g : Fin 100000), g.val = 5000 * t + r.val → xb (ix2 r j) = A (ix2 g j))
    (hb : ∀ (j : Fin 16), bb (ix2 (0 : Fin 1) j) = B (ix2 (0 : Fin 1) j))
    (y : S5000x16.Idx) (i : S100000x16.Idx) (h0 : (i 0).val = 5000 * t + (y 0).val) (h1 : (i 1).val = (y 1).val) :
    k1_pay1 (F := Ideal) xb bb y = Cert.Gcn.biasReluRow A B i := by
  obtain ⟨r, j, rfl⟩ : ∃ (r : Fin 5000) (j : Fin 16), y = ix2 r j := ⟨y 0, y 1, eq_ix2 y⟩
  obtain ⟨g, j', rfl⟩ : ∃ (g : Fin 100000) (j' : Fin 16), i = ix2 g j' := ⟨i 0, i 1, eq_ix2 i⟩
  obtain rfl : j = j' := (Fin.ext h1).symm
  rw [stored_apply, Cert.Gcn.biasReluRow_apply, hx r j g h0, hb j]

/-- Where the three windows' blocks sit, decided over the twenty points: the first operand's and the result's block
    index on the row axis is the point's number, every other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array bias-and-rectifier of the region's two operand arrays. -/
theorem flushed_eq (c : Dev nD) (t : Fin cfg1.N) :
    (dat1 (F := Ideal) V c).flushed 2 t
      = ((cfg1.win 2).blk t).view.read (Elt Ideal) (Cert.Gcn.biasReluRow (V c main_v43) (V c main_v44)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S1x16) zero_offsets]
  obtain ⟨e00, e01, e10, e11, e20, e21⟩ := block_indices t
  funext y
  refine stored_eq_biasReluRow (V c main_v43) (V c main_v44) (iblk1 V c 0 t) (iblk1 V c 1 t) t.val ?_ ?_ y
    (((cfg1.win 2).blk t).view.emb y) ?_ ?_
  · intro r j g hg
    show V c main_v43 (((cfg1.win 0).blk t).view.emb (ix2 r j)) = V c main_v43 (ix2 g j)
    refine congrArg (V c main_v43) (funext fun a => Fin.ext ?_)
    match a with
    | ⟨0, _⟩ => show win1_0.index t (0 : Fin 2) * 5000 + 1 * r.val = g.val; omega
    | ⟨1, _⟩ => show win1_0.index t (1 : Fin 2) * 16 + 1 * j.val = j.val; omega
  · intro j
    show V c main_v44 (((cfg1.win 1).blk t).view.emb (ix2 (0 : Fin 1) j)) = V c main_v44 (ix2 (0 : Fin 1) j)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * j.val = j.val; omega
  · show win1_2.index t (0 : Fin 2) * 5000 + 1 * (y 0).val = 5000 * t.val + (y 0).val; omega
  · show win1_2.index t (1 : Fin 2) * 16 + 1 * (y 1).val = (y 1).val; omega

/-- An index of the result array is in point t's block iff its row is among the block's 5000 rows. -/
theorem mem_block (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every index of the result array lies in the block of the point numbered by its row over 5000. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  refine ⟨⟨(i 0).val / 5000, by rw [hN]; omega⟩, flush1_2 _, ?_⟩
  rw [mem_block]
  obtain ⟨-, -, -, -, e20, e21⟩ := block_indices ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 16 ≤ (i 1).val ∧ (i 1).val < win1_2.index _ (1 : Fin 2) * 16 + 16
    rw [e21]; omega

/-- The result array after the region: the bias-and-rectifier of the region's two operand arrays. -/
theorem value (c : Dev nD) : (dat1 (F := Ideal) V c).arrAt 2 cfg1.N = Cert.Gcn.biasReluRow (V c main_v43) (V c main_v44) :=
  (dat1 V c).arrAt_eq_of_cover 2 _ (fun t _ => flushed_eq V c t) covered

end Cert.KernelIdeal.Region1

end
-- ==== Proof.Region2.lean ====
/-
  Region 2: the second layer's transform H2 = H · W2, computed 5000 rows at a time.

  Grid point t (of 20) stages rows 5000·t … 5000·t + 4999 of H and the whole of W2, multiplies them on the matrix unit into a
  zero accumulator (the same-shape cast of the left block is the identity, and the narrowing of both operands to bf16 is
  the identity on the extended reals) and writes the 5000 × 64 result back as rows 5000·t … of H2. Entry (p, q) of that
  block is Σ_k H[5000·t + p, k] · W2[k, q], which is entry (5000·t + p, q) of the whole product; the twenty blocks tile
  the array, so the array ends holding H · W2.
-/
import proofs.«135939_j43782896616158_1_alg».proof.Proof.Gen.KernelIdeal.Frame
import proofs.«135939_j43782896616158_1_alg».proof.Proof.Spec
import proofs.«135939_j43782896616158_1_alg».proof.Proof.LibPlainDot
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed dimension numbers are those of a plain M×K by K×N product. -/
theorem dims_plain : dot_S5000x16_S16x64_S5000x64_1_0_0_1_n_n = DotDims.plain 5000 16 64 := rfl

/-- The body's stored value at (p, q): the product's entry. -/
theorem stored_apply (xb : FVec Ideal S5000x16 .f32) (wb : FVec Ideal S16x64 .f32) (p : Fin 5000) (q : Fin 64) :
    k2_pay1 (F := Ideal) xb wb (ix2 p q) = Cert.Gcn.productAt xb wb p q := by
  unfold k2_pay1
  show FloatOps.matmul dot_S5000x16_S16x64_S5000x64_1_0_0_1_n_n none (shapeCast S5000x16 xb _) wb
      (constant S5000x64 .f32 0x00000000#32) (ix2 p q) = _
  rw [shapeCast_self, dims_plain]
  exact Cert.PlainDot.matmul_zero_apply none xb wb p q

/-- The stored block of a point whose left block is rows 5000·t … of X and whose right block is W, at block index y,
    is the whole product at the array index i with i₀ = 5000·t + y₀, i₁ = y₁. -/
theorem stored_eq_product (X : FVec Ideal S100000x16 .f32) (W : FVec Ideal S16x64 .f32)
    (xb : Vec Ideal S5000x16 .f32) (wb : Vec Ideal S16x64 .f32) (t : ℕ)
    (hx : ∀ (r : Fin 5000) (k : Fin 16) (g : Fin 100000), g.val = 5000 * t + r.val → xb (ix2 r k) = X (ix2 g k))
    (hw : ∀ (k : Fin 16) (q : Fin 64), wb (ix2 k q) = W (ix2 k q))
    (y : S5000x64.Idx) (i : S100000x64.Idx) (h0 : (i 0).val = 5000 * t + (y 0).val) (h1 : (i 1).val = (y 1).val) :
    k2_pay1 (F := Ideal) xb wb y = Cert.Gcn.product X W i := by
  obtain ⟨r, q, rfl⟩ : ∃ (r : Fin 5000) (q : Fin 64), y = ix2 r q := ⟨y 0, y 1, eq_ix2 y⟩
  obtain ⟨g, q', rfl⟩ : ∃ (g : Fin 100000) (q' : Fin 64), i = ix2 g q' := ⟨i 0, i 1, eq_ix2 i⟩
  have hq : q' = q := Fin.ext h1
  rw [stored_apply, Cert.Gcn.product_apply, hq]
  unfold Cert.Gcn.productAt
  exact Finset.sum_congr rfl fun k _ => by rw [hx r k g h0, hw k q]

/-- Where the three windows' blocks sit, decided over the twenty points: the left operand's and the result's block
    index on the row axis is the point's number, every other block index is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the region's two operand arrays. -/
theorem flushed_eq (c : Dev nD) (t : Fin cfg2.N) :
    (dat2 (F := Ideal) V c).flushed 2 t
      = ((cfg2.win 2).blk t).view.read (Elt Ideal) (Cert.Gcn.product (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x64) zero_offsets]
  obtain ⟨e00, e01, e10, e11, e20, e21⟩ := block_indices t
  funext j
  refine stored_eq_product (V c main_v45) (V c main_arg4) (iblk2 V c 0 t) (iblk2 V c 1 t) t.val ?_ ?_ j
    (((cfg2.win 2).blk t).view.emb j) ?_ ?_
  · intro r k g hg
    show V c main_v45 (((cfg2.win 0).blk t).view.emb (ix2 r k)) = V c main_v45 (ix2 g k)
    refine congrArg (V c main_v45) (funext fun a => Fin.ext ?_)
    match a with
    | ⟨0, _⟩ => show win2_0.index t (0 : Fin 2) * 5000 + 1 * r.val = g.val; omega
    | ⟨1, _⟩ => show win2_0.index t (1 : Fin 2) * 16 + 1 * k.val = k.val; omega
  · intro k q
    show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 64 + 1 * q.val = q.val; omega
  · show win2_2.index t (0 : Fin 2) * 5000 + 1 * (j 0).val = 5000 * t.val + (j 0).val; omega
  · show win2_2.index t (1 : Fin 2) * 64 + 1 * (j 1).val = (j 1).val; omega

/-- An index of the result array is in point t's block iff its row is among the block's 5000 rows. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every index of the result array lies in the block of the point numbered by its row over 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_block]
  obtain ⟨-, -, -, -, e20, e21⟩ := block_indices ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e21]; omega

/-- The result array after the region: the product of the region's two operand arrays. -/
theorem value (c : Dev nD) : (dat2 (F := Ideal) V c).arrAt 2 cfg2.N = Cert.Gcn.product (V c main_v45) (V c main_arg4) :=
  (dat2 V c).arrAt_eq_of_cover 2 _ (fun t _ => flushed_eq V c t) covered

end Cert.KernelIdeal.Region2

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.Region3.lean ====
/-
  Region 3: the second layer's bias and row-wise log-softmax, computed 5000 rows at a time.

  Grid point t (of 20) stages rows 5000·t … 5000·t + 4999 of the aggregated array A and the whole bias row B. With
  z = A + B (the row B repeated down the block), every row p of the block is shifted by its maximum M_p = max_k z[p,k]
  (taken from −∞), and the logarithm of the shifted row's exponential sum is subtracted:

      out[p, j] = (z[p,j] − M_p) − log Σ_k exp (z[p,k] − M_p).

  The maximum and the sum range over the row's 64 columns, all of which lie in the same block, so entry (p, j) of the
  block is the row-wise log-softmax of A + B at (5000·t + p, j); the twenty blocks tile the array.
-/
import proofs.«135939_j43782896616158_1_alg».proof.Proof.Gen.KernelIdeal.Frame
import proofs.«135939_j43782896616158_1_alg».proof.Proof.Spec
import proofs.«135939_j43782896616158_1_alg».proof.Proof.LibRowBias
import proofs.«135939_j43782896616158_1_alg».proof.Proof.LibRows
import proofs.«135939_j43782896616158_1_alg».proof.Proof.LibColumn
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- A vector of row values laid out as a column and repeated along the columns holds, at (p, k), the value of row p. -/
theorem column_apply (m : FVec Ideal S5000 .f32) (hc : S5000.ShapeCasts S5000x1) (hb : S5000x1.Broadcasts S5000x64)
    (p : Fin 5000) (k : Fin 64) :
    broadcastTo S5000x64 (shapeCast S5000x1 m hc) hb (ix2 p k) = m (ix1 p) :=
  (Column.broadcastTo_a1_ab_apply (by decide) (shapeCast S5000x1 m hc) hb p k).trans
    (Column.shapeCast_a_a1_apply m hc p (0 : Fin 1))

/-- The shifted-row arithmetic of the body over a block z, at (p, j): the log-softmax of row p of z at column j. -/
theorem lsm_block (z : FVec Ideal S5000x64 .f32)
    (hr : S5000x64.Reduces [1] S5000) (hc : S5000.ShapeCasts S5000x1) (hb : S5000x1.Broadcasts S5000x64)
    (hφ : FKind.Formats .f32) (h1 : (0xFF800000#32 : BitVec FTy.f32.bits) = FKind.maximumf.neutral .f32 hφ)
    (h2 : (0x00000000#32 : BitVec FTy.f32.bits) = FKind.add.neutral .f32 hφ)
    (p : Fin 5000) (j : Fin 64) :
    subf (subf z (broadcastTo S5000x64 (shapeCast S5000x1 (multiReduction (F := Ideal) .maximumf [1] S5000 z 0xFF800000#32 hr hφ h1) hc) hb))
      (broadcastTo S5000x64 (log (shapeCast S5000x1 (multiReduction (F := Ideal) .add [1] S5000
        (exp (subf z (broadcastTo S5000x64 (shapeCast S5000x1 (multiReduction (F := Ideal) .maximumf [1] S5000 z 0xFF800000#32 hr hφ h1) hc) hb)))
        0x00000000#32 hr hφ h2) hc)) hb) (ix2 p j)
      = Cert.Gcn.logSoftmaxAt (fun k => z (ix2 p k)) j := by
  -- the row maximum
  have hM : multiReduction (F := Ideal) .maximumf [1] S5000 z 0xFF800000#32 hr hφ h1 (ix1 p)
      = (Finset.univ : Finset (Fin 64)).fold max Cert.Gcn.negInfW (fun k => z (ix2 p k)) :=
    Rows.mredMax_row z 0xFF800000#32 hr hφ h1 p
  -- the shifted row
  have hzz : ∀ k : Fin 64,
      subf z (broadcastTo S5000x64 (shapeCast S5000x1 (multiReduction (F := Ideal) .maximumf [1] S5000 z 0xFF800000#32 hr hφ h1) hc) hb) (ix2 p k)
        = z (ix2 p k) - (Finset.univ : Finset (Fin 64)).fold max Cert.Gcn.negInfW (fun k => z (ix2 p k)) := fun k => by
    show z (ix2 p k) - broadcastTo S5000x64 (shapeCast S5000x1 (multiReduction (F := Ideal) .maximumf [1] S5000 z 0xFF800000#32 hr hφ h1) hc) hb (ix2 p k) = _
    rw [column_apply, hM]
  -- the exponential sum of the shifted row
  have hS : multiReduction (F := Ideal) .add [1] S5000
        (exp (subf z (broadcastTo S5000x64 (shapeCast S5000x1 (multiReduction (F := Ideal) .maximumf [1] S5000 z 0xFF800000#32 hr hφ h1) hc) hb)))
        0x00000000#32 hr hφ h2 (ix1 p)
      = ∑ k : Fin 64, Ideal.exp (z (ix2 p k) - (Finset.univ : Finset (Fin 64)).fold max Cert.Gcn.negInfW (fun k => z (ix2 p k))) := by
    refine (Rows.mredAdd_row _ 0x00000000#32 hr hφ h2 p).trans ?_
    refine Finset.sum_congr rfl fun k _ => ?_
    show Ideal.exp (subf z (broadcastTo S5000x64 (shapeCast S5000x1 (multiReduction (F := Ideal) .maximumf [1] S5000 z 0xFF800000#32 hr hφ h1) hc) hb) (ix2 p k)) = _
    rw [hzz k]
  show subf z (broadcastTo S5000x64 (shapeCast S5000x1 (multiReduction (F := Ideal) .maximumf [1] S5000 z 0xFF800000#32 hr hφ h1) hc) hb) (ix2 p j)
      - broadcastTo S5000x64 (log (shapeCast S5000x1 (multiReduction (F := Ideal) .add [1] S5000
        (exp (subf z (broadcastTo S5000x64 (shapeCast S5000x1 (multiReduction (F := Ideal) .maximumf [1] S5000 z 0xFF800000#32 hr hφ h1) hc) hb)))
        0x00000000#32 hr hφ h2) hc)) hb (ix2 p j) = _
  rw [hzz j, Column.broadcastTo_a1_ab_apply (by decide) _ hb p j]
  show _ - Ideal.log (shapeCast S5000x1 (multiReduction (F := Ideal) .add [1] S5000
        (exp (subf z (broadcastTo S5000x64 (shapeCast S5000x1 (multiReduction (F := Ideal) .maximumf [1] S5000 z 0xFF800000#32 hr hφ h1) hc) hb)))
        0x00000000#32 hr hφ h2) hc (ix2 p (0 : Fin 1))) = _
  rw [Column.shapeCast_a_a1_apply _ hc p (0 : Fin 1), hS]
  rfl

/-- The body's stored value at (p, j): the log-softmax of row p of the block plus the bias row, at column j. -/
theorem stored_apply (xb : Vec Ideal S5000x64 .f32) (bb : Vec Ideal S1x64 .f32) (p : Fin 5000) (j : Fin 64) :
    k3_pay1 (F := Ideal) xb bb (ix2 p j)
      = Cert.Gcn.logSoftmaxAt (fun k => xb (ix2 p k) + bb (ix2 (0 : Fin 1) k)) j := by
  unfold k3_pay1
  refine (lsm_block (addf (shapeCast S5000x64 xb shapeCasts_S5000x64_S5000x64)
      (broadcastTo S5000x64 (shapeCast S1x64 bb shapeCasts_S1x64_S1x64) broadcasts_S1x64_S5000x64))
    reduces_S5000x64_S5000 shapeCasts_S5000_S5000x1 broadcasts_S5000x1_S5000x64 (.inl rfl) rfl rfl p j).trans ?_
  refine congrArg (fun z => Cert.Gcn.logSoftmaxAt z j) (funext fun k => ?_)
  show shapeCast S5000x64 xb shapeCasts_S5000x64_S5000x64 (ix2 p k)
      + broadcastTo S5000x64 (shapeCast S1x64 bb shapeCasts_S1x64_S1x64) broadcasts_S1x64_S5000x64 (ix2 p k) = _
  rw [shapeCast_self, shapeCast_self, Cert.RowBias.rows_apply]

/-- The stored block of a point whose first block is rows 5000·t … of A and whose second block is the bias row B, at block
    index y, is the row-wise log-softmax of A + B at the array index i with i₀ = 5000·t + y₀, i₁ = y₁. -/
theorem stored_eq_logSoftmax (A : FVec Ideal S100000x64 .f32) (B : FVec Ideal S1x64 .f32)
    (xb : Vec Ideal S5000x64 .f32) (bb : Vec Ideal S1x64 .f32) (t : ℕ)
    (hx : ∀ (r : Fin 5000) (k : Fin 64) (g : Fin 100000), g.val = 5000 * t + r.val → xb (ix2 r k) = A (ix2 g k))
    (hb : ∀ (k : Fin 64), bb (ix2 (0 : Fin 1) k) = B (ix2 (0 : Fin 1) k))
    (y : S5000x64.Idx) (i : S100000x64.Idx) (h0 : (i 0).val = 5000 * t + (y 0).val) (h1 : (i 1).val = (y 1).val) :
    k3_pay1 (F := Ideal) xb bb y = Cert.Gcn.logSoftmaxRow A B i := by
  obtain ⟨r, q, rfl⟩ : ∃ (r : Fin 5000) (q : Fin 64), y = ix2 r q := ⟨y 0, y 1, eq_ix2 y⟩
  obtain ⟨g, q', rfl⟩ : ∃ (g : Fin 100000) (q' : Fin 64), i = ix2 g q' := ⟨i 0, i 1, eq_ix2 i⟩
  obtain rfl : q' = q := Fin.ext h1
  rw [stored_apply, Cert.Gcn.logSoftmaxRow_apply]
  refine congrArg (fun z => Cert.Gcn.logSoftmaxAt z q') (funext fun k => ?_)
  rw [hx r k g h0, hb k]

/-- Where the three windows' blocks sit, decided over the twenty points: the first operand's and the result's block
    index on the row axis is the point's number, every other block index is zero. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the row-wise log-softmax of the region's operand array plus its bias row. -/
theorem flushed_eq (c : Dev nD) (t : Fin cfg3.N) :
    (dat3 (F := Ideal) V c).flushed 2 t
      = ((cfg3.win 2).blk t).view.read (Elt Ideal) (Cert.Gcn.logSoftmaxRow (V c main_v59) (V c main_v60)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e00, e01, e10, e11, e20, e21⟩ := block_indices t
  funext j
  refine stored_eq_logSoftmax (V c main_v59) (V c main_v60) (iblk3 V c 0 t) (iblk3 V c 1 t) t.val ?_ ?_ j
    (((cfg3.win 2).blk t).view.emb j) ?_ ?_
  · intro r k g hg
    show V c main_v59 (((cfg3.win 0).blk t).view.emb (ix2 r k)) = V c main_v59 (ix2 g k)
    refine congrArg (V c main_v59) (funext fun a => Fin.ext ?_)
    match a with
    | ⟨0, _⟩ => show win3_0.index t (0 : Fin 2) * 5000 + 1 * r.val = g.val; omega
    | ⟨1, _⟩ => show win3_0.index t (1 : Fin 2) * 64 + 1 * k.val = k.val; omega
  · intro k
    show V c main_v60 (((cfg3.win 1).blk t).view.emb (ix2 (0 : Fin 1) k)) = V c main_v60 (ix2 (0 : Fin 1) k)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  · show win3_2.index t (0 : Fin 2) * 5000 + 1 * (j 0).val = 5000 * t.val + (j 0).val; omega
  · show win3_2.index t (1 : Fin 2) * 64 + 1 * (j 1).val = (j 1).val; omega

/-- An index of the result array is in point t's block iff its row is among the block's 5000 rows. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every index of the result array lies in the block of the point numbered by its row over 5000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_block]
  obtain ⟨-, -, -, -, e20, e21⟩ := block_indices ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e20]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e21]; omega

/-- The result array after the region: the row-wise log-softmax of the region's operand array plus its bias row. -/
theorem value (c : Dev nD) :
    (dat3 (F := Ideal) V c).arrAt 2 cfg3.N = Cert.Gcn.logSoftmaxRow (V c main_v59) (V c main_v60) :=
  (dat3 V c).arrAt_eq_of_cover 2 _ (fun t _ => flushed_eq V c t) covered

end Cert.KernelIdeal.Region3

end
-- ==== Proof.RefDenseA.lean ====
/-
  The host program's three dense stages of layer one and the product of layer two, as the whole-array functions of the
  specification.

  The host's dot_general with the dimension numbers of a plain M×K by K×N product holds at (p, q) the sum over k of
  X[p,k] · W[k,q], which is the specification's product. The host's bias and rectifier broadcasts the bias vector [16] to
  one row [1, 16] and then down the 100000 rows, adds it, and takes the maximum with a broadcast scalar zero: at (p, j)
  this is max (A[p,j] + b[j]) 0, the specification's biasRelu.
-/
import proofs.«135939_j43782896616158_1_alg».proof.Proof.Gen.ReferenceIdeal
import proofs.«135939_j43782896616158_1_alg».proof.Proof.Spec
import proofs.«135939_j43782896616158_1_alg».proof.Proof.LibPlainDot
import proofs.«135939_j43782896616158_1_alg».proof.Proof.LibRowBias

set_option maxRecDepth 16384

noncomputable section

namespace Cert.ReferenceIdeal.Dense

open Cert.ReferenceIdeal Cert.ReferenceIdeal.Gen Idealize.ShloMosaic Idealize.ShloMosaic.ValueIdx

/-- The printed dimension numbers of the first product are those of a plain 100000×128 by 128×16 product. -/
theorem dims1_plain : dot_S100000x128_S128x16_S100000x16_1_0_0_1_n_n = DotDims.plain 100000 128 16 := rfl

/-- The printed dimension numbers of the second product are those of a plain 100000×16 by 16×64 product. -/
theorem dims2_plain : dot_S100000x16_S16x64_S100000x64_1_0_0_1_n_n = DotDims.plain 100000 16 64 := rfl

/-- The host's first product is X · W1. -/
theorem dot1_eq (x : FVec Ideal S100000x128 .f32) (w : FVec Ideal S128x16 .f32) :
    Host.dotGeneral dot_S100000x128_S128x16_S100000x16_1_0_0_1_n_n none x w = Cert.Gcn.product x w := by
  funext i
  obtain ⟨p, q, rfl⟩ : ∃ (p : Fin 100000) (q : Fin 16), i = ix2 p q := ⟨i 0, i 1, eq_ix2 i⟩
  rw [Cert.Gcn.product_apply]
  show FloatOps.dotGeneral dot_S100000x128_S128x16_S100000x16_1_0_0_1_n_n none .single x w (ix2 p q) = _
  rw [dims1_plain]
  exact Cert.PlainDot.dotGeneral_apply none .single x w p q

/-- The host's second product is H · W2. -/
theorem dot2_eq (x : FVec Ideal S100000x16 .f32) (w : FVec Ideal S16x64 .f32) :
    Host.dotGeneral dot_S100000x16_S16x64_S100000x64_1_0_0_1_n_n none x w = Cert.Gcn.product x w := by
  funext i
  obtain ⟨p, q, rfl⟩ : ∃ (p : Fin 100000) (q : Fin 64), i = ix2 p q := ⟨i 0, i 1, eq_ix2 i⟩
  rw [Cert.Gcn.product_apply]
  show FloatOps.dotGeneral dot_S100000x16_S16x64_S100000x64_1_0_0_1_n_n none .single x w (ix2 p q) = _
  rw [dims2_plain]
  exact Cert.PlainDot.dotGeneral_apply none .single x w p q

/-- The host's bias and rectifier of layer one is the specification's. -/
theorem relu_eq (a : FVec Ideal S100000x16 .f32) (b : FVec Ideal S16 .f32) :
    maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32)) = Cert.Gcn.biasRelu a b := by
  funext i
  obtain ⟨p, j, rfl⟩ : ∃ (p : Fin 100000) (j : Fin 16), i = ix2 p j := ⟨i 0, i 1, eq_ix2 i⟩
  rw [Cert.Gcn.biasRelu_apply, maximumf_apply, addf_apply, Cert.RowBias.hostRows_apply, Cert.RowBias.splat_apply, constant_apply]
  rfl

end Cert.ReferenceIdeal.Dense

end
-- ==== Proof.RefDenseB.lean ====
/-
  The host's row-wise log-softmax, read index by index.

  The host computes, from z = a + bias (the bias vector repeated down the rows), the row maxima M_p = max (−∞) (max over k
  of z[p,k], from −∞), lays them out as a column and repeats them along the columns, shifts every row by its maximum, sums
  the exponentials of the shifted row from zero, takes the logarithm of that sum and subtracts it from the shifted row:

      out[p, j] = (z[p,j] − M_p) − log Σ_k exp (z[p,k] − M_p).

  The outer maximum with −∞ changes nothing (−∞ is below the fold that starts at −∞), and the sum's initial zero adds
  nothing, so at (p, j) the host's value is the log-softmax of row p of z at column j.
-/
import proofs.«135939_j43782896616158_1_alg».proof.Proof.Gen.ReferenceIdeal
import proofs.«135939_j43782896616158_1_alg».proof.Proof.Spec
import proofs.«135939_j43782896616158_1_alg».proof.Proof.LibRowBias
import proofs.«135939_j43782896616158_1_alg».proof.Proof.LibRows
import proofs.«135939_j43782896616158_1_alg».proof.Proof.LibColumn

set_option maxRecDepth 16384

noncomputable section

open scoped BigOperators

namespace Cert.ReferenceIdeal.Dense

open Cert.ReferenceIdeal Cert.ReferenceIdeal.Gen Idealize.ShloMosaic Idealize.ShloMosaic.ValueIdx

/-- the host chain as one function of z -/
def hostLogSoftmax (z : FVec Ideal S100000x64 .f32) : FVec Ideal S100000x64 .f32 :=
  subf (F := Ideal) (subf (F := Ideal) z (broadcastInDim S100000x64 ![0, 1] bcast_S100000x1_S100000x64_0_1 (broadcastInDim S100000x1 ![0] bcast_S100000_S100000x1_0 (maximumf (F := Ideal) (broadcastInDim S100000 ![] bcast_S_S100000 (constant (F := Ideal) S_ .f32 0xFF800000#32)) (Host.reduce FloatOps.maximumf z (constant (F := Ideal) S_ .f32 0xFF800000#32) reducesTo_S100000x64_S100000_d1 h_S_)))))
    (broadcastInDim S100000x64 ![0, 1] bcast_S100000x1_S100000x64_0_1 (Host.log (F := Ideal) (broadcastInDim S100000x1 ![0] bcast_S100000_S100000x1_0 (Host.reduceAdd (F := Ideal) (Host.exp (F := Ideal) (subf (F := Ideal) z (broadcastInDim S100000x64 ![0, 1] bcast_S100000x1_S100000x64_0_1 (broadcastInDim S100000x1 ![0] bcast_S100000_S100000x1_0 (maximumf (F := Ideal) (broadcastInDim S100000 ![] bcast_S_S100000 (constant (F := Ideal) S_ .f32 0xFF800000#32)) (Host.reduce FloatOps.maximumf z (constant (F := Ideal) S_ .f32 0xFF800000#32) reducesTo_S100000x64_S100000_d1 h_S_)))))) (constant (F := Ideal) S_ .f32 0x00000000#32) reducesTo_S100000x64_S100000_d1 h_S_))))

/-- The shape fact that names a row's inserted column index. -/
theorem reduces_rows : S100000x64.Reduces [1] S100000 := by decide

/-- The host's row maxima. -/
def hostMax (z : FVec Ideal S100000x64 .f32) : FVec Ideal S100000 .f32 :=
  maximumf (F := Ideal) (broadcastInDim S100000 ![] bcast_S_S100000 (constant (F := Ideal) S_ .f32 0xFF800000#32))
    (Host.reduce FloatOps.maximumf z (constant (F := Ideal) S_ .f32 0xFF800000#32) reducesTo_S100000x64_S100000_d1 h_S_)

/-- The rows shifted by their maxima. -/
def hostShift (z : FVec Ideal S100000x64 .f32) : FVec Ideal S100000x64 .f32 :=
  subf (F := Ideal) z (broadcastInDim S100000x64 ![0, 1] bcast_S100000x1_S100000x64_0_1
    (broadcastInDim S100000x1 ![0] bcast_S100000_S100000x1_0 (hostMax z)))

/-- The exponential sums of the shifted rows. -/
def hostSum (z : FVec Ideal S100000x64 .f32) : FVec Ideal S100000 .f32 :=
  Host.reduceAdd (F := Ideal) (Host.exp (F := Ideal) (hostShift z)) (constant (F := Ideal) S_ .f32 0x00000000#32)
    reducesTo_S100000x64_S100000_d1 h_S_

theorem hostLogSoftmax_eq (z : FVec Ideal S100000x64 .f32) :
    hostLogSoftmax z = subf (F := Ideal) (hostShift z) (broadcastInDim S100000x64 ![0, 1] bcast_S100000x1_S100000x64_0_1
      (Host.log (F := Ideal) (broadcastInDim S100000x1 ![0] bcast_S100000_S100000x1_0 (hostSum z)))) := rfl

/-- A vector of row values laid out as a column and repeated along the columns holds, at (p, k), the value of row p. -/
theorem column_apply (m : FVec Ideal S100000 .f32) (p : Fin 100000) (k : Fin 64) :
    broadcastInDim S100000x64 ![0, 1] bcast_S100000x1_S100000x64_0_1
      (broadcastInDim S100000x1 ![0] bcast_S100000_S100000x1_0 m) (ix2 p k) = m (ix1 p) :=
  (Column.broadcastInDim_a1_ab_apply (by decide) (broadcastInDim S100000x1 ![0] bcast_S100000_S100000x1_0 m) ![0, 1] rfl rfl
      bcast_S100000x1_S100000x64_0_1 p k).trans
    (Column.broadcastInDim_a_a1_apply m ![0] rfl bcast_S100000_S100000x1_0 p (0 : Fin 1))

/-- Minus infinity is below any maximum taken from minus infinity. -/
theorem max_fold_self {n : ℕ} (a : EReal) (f : Fin n → EReal) :
    max a ((Finset.univ : Finset (Fin n)).fold max a f) = (Finset.univ : Finset (Fin n)).fold max a f :=
  max_eq_right ((Finset.le_fold_max a).mpr (Or.inl le_rfl))

/-- The host's exponential and logarithm act entry by entry. -/
theorem hostExp_apply {s : Shape} {φ : FTy} (x : FVec Ideal s φ) (i : s.Idx) : Host.exp (F := Ideal) x i = Ideal.exp (x i) := rfl

theorem hostLog_apply {s : Shape} {φ : FTy} (x : FVec Ideal s φ) (i : s.Idx) : Host.log (F := Ideal) x i = Ideal.log (x i) := rfl

/-- The host's maximum of row p. -/
theorem hostMax_apply (z : FVec Ideal S100000x64 .f32) (p : Fin 100000) :
    hostMax z (ix1 p) = (Finset.univ : Finset (Fin 64)).fold max Cert.Gcn.negInfW (fun k => z (ix2 p k)) := by
  unfold hostMax
  rw [maximumf_apply, Cert.RowBias.splat_apply, constant_apply,
    Rows.hredMax_row z _ reducesTo_S100000x64_S100000_d1 reduces_rows h_S_ p, constant_apply]
  exact max_fold_self _ _

/-- The shifted row p. -/
theorem hostShift_apply (z : FVec Ideal S100000x64 .f32) (p : Fin 100000) (k : Fin 64) :
    hostShift z (ix2 p k)
      = z (ix2 p k) - (Finset.univ : Finset (Fin 64)).fold max Cert.Gcn.negInfW (fun k => z (ix2 p k)) := by
  unfold hostShift
  rw [subf_apply, column_apply, hostMax_apply]

/-- The exponential sum of the shifted row p. -/
theorem hostSum_apply (z : FVec Ideal S100000x64 .f32) (p : Fin 100000) :
    hostSum z (ix1 p)
      = ∑ k : Fin 64, Ideal.exp (z (ix2 p k) - (Finset.univ : Finset (Fin 64)).fold max Cert.Gcn.negInfW (fun k => z (ix2 p k))) := by
  unfold hostSum
  rw [Rows.hredAdd_row _ _ reducesTo_S100000x64_S100000_d1 reduces_rows h_S_ p, constant_apply, Ideal.ofBits_zero_f32, zero_add]
  refine Finset.sum_congr rfl fun k _ => ?_
  rw [hostExp_apply, hostShift_apply]

/-- The host chain at (p, j): the log-softmax of row p of z at column j. -/
theorem hostLogSoftmax_apply (z : FVec Ideal S100000x64 .f32) (p : Fin 100000) (j : Fin 64) :
    hostLogSoftmax z (ix2 p j) = Cert.Gcn.logSoftmaxAt (fun k => z (ix2 p k)) j := by
  rw [hostLogSoftmax_eq, subf_apply, hostShift_apply,
    Column.broadcastInDim_a1_ab_apply (by decide) _ ![0, 1] rfl rfl bcast_S100000x1_S100000x64_0_1 p j,
    hostLog_apply, Column.broadcastInDim_a_a1_apply (hostSum z) ![0] rfl bcast_S100000_S100000x1_0 p (0 : Fin 1),
    hostSum_apply]
  rfl

theorem lsm_eq (a : FVec Ideal S100000x64 .f32) (b : FVec Ideal S64 .f32) :
    hostLogSoftmax (addf (F := Ideal) a (broadcastInDim S100000x64 ![0, 1] bcast_S1x64_S100000x64_0_1 (broadcastInDim S1x64 ![1] bcast_S64_S1x64_1 b)))
      = Cert.Gcn.logSoftmax a b := by
  funext i
  obtain ⟨p, j, rfl⟩ : ∃ (p : Fin 100000) (j : Fin 64), i = ix2 p j := ⟨i 0, i 1, eq_ix2 i⟩
  rw [hostLogSoftmax_apply, Cert.Gcn.logSoftmax_apply]
  refine congrArg (fun z => Cert.Gcn.logSoftmaxAt z j) (funext fun k => ?_)
  rw [addf_apply, Cert.RowBias.hostRows_apply b bcast_S64_S1x64_1 bcast_S1x64_S100000x64_0_1 p k]

end Cert.ReferenceIdeal.Dense

end
-- ==== Proof.KernelValue.lean ====
/-
  The idealized kernel's result array as the reference's own stage functions of the launch arrays.

  @main is five stretches of host operations around four kernel regions. The host stretches are, operation for operation,
  the reference's (the degree normalisation of the edge list, and per layer: gather the transformed rows at the edges'
  sources, scale by the normalisation, sum at the edges' targets), so each is read back as the reference's stage at the
  same operands; each region's array is the dense stage computed by the kernel (product, bias and rectifier, product, bias
  and log-softmax), which is the reference's dense stage at the same operands. Walking the boundary contents from the
  launch to the return, the result array is the reference's last stage of the six launch arrays.
-/
import proofs.«135939_j43782896616158_1_alg».proof.Proof.Gen.KernelIdeal.Frame
import proofs.«135939_j43782896616158_1_alg».proof.Proof.Spec
import proofs.«135939_j43782896616158_1_alg».proof.Proof.Region0
import proofs.«135939_j43782896616158_1_alg».proof.Proof.Region1
import proofs.«135939_j43782896616158_1_alg».proof.Proof.Region2
import proofs.«135939_j43782896616158_1_alg».proof.Proof.Region3
import proofs.«135939_j43782896616158_1_alg».proof.Proof.RefRead
import proofs.«135939_j43782896616158_1_alg».proof.Proof.RefDenseA
import proofs.«135939_j43782896616158_1_alg».proof.Proof.RefDenseB
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStretch

open Cert.KernelIdeal Cert.KernelIdeal.Gen Cert.ReferenceIdeal.Read

variable {F : FTy → Type} [FloatOps F]

/-! ## The host stretches, from any boundary contents -/

section Stretches
variable (V : Valuation τ sig (Elt F))

/-- Before the first region: the sources, the targets and the normalisation are the reference's stages of the edge list. -/
theorem pre_v3 : after hostOps0_2 (after hostOps0_1 (after hostOps0 V)) (Proc.devRef .tc main_v3)
    = val_main_v3 (F := F) (V (Proc.devRef .tc main_arg1)) := by
  simp only [hostOps0, hostOps0_1, hostOps0_2]
  after_results
  rfl
theorem pre_v6 : after hostOps0_2 (after hostOps0_1 (after hostOps0 V)) (Proc.devRef .tc main_v6)
    = val_main_v6 (F := F) (V (Proc.devRef .tc main_arg1)) := by
  simp only [hostOps0, hostOps0_1, hostOps0_2]
  after_results
  rfl
/-- The degree test and the reciprocal square root of the degrees, from the launch contents. -/
theorem h0_v12 : after hostOps0 V (Proc.devRef .tc main_v12) = val_main_v12 (F := F) (V (Proc.devRef .tc main_arg1)) := by
  simp only [hostOps0]
  after_results
  rfl
theorem h0_v13 : after hostOps0 V (Proc.devRef .tc main_v13) = val_main_v13 (F := F) (V (Proc.devRef .tc main_arg1)) := by
  simp only [hostOps0]
  after_results
  rfl
theorem h0_cst_2 : after hostOps0 V (Proc.devRef .tc main_cst_2) = val_main_cst_2 (F := F) := by
  after_results_simp <;> rfl
theorem h0_v3 : after hostOps0 V (Proc.devRef .tc main_v3) = val_main_v3 (F := F) (V (Proc.devRef .tc main_arg1)) := by
  simp only [hostOps0]
  after_results
  rfl
theorem h0_v6 : after hostOps0 V (Proc.devRef .tc main_v6) = val_main_v6 (F := F) (V (Proc.devRef .tc main_arg1)) := by
  simp only [hostOps0]
  after_results
  rfl
/-- The inverse square root where the degree is positive, zero elsewhere. -/
theorem h1_v14 (x1 : (⟨S2x3200000, .i32⟩ : BufTy).Contents (Elt F))
    (h12 : V (Proc.devRef .tc main_v12) = val_main_v12 (F := F) x1)
    (h13 : V (Proc.devRef .tc main_v13) = val_main_v13 (F := F) x1)
    (hc : V (Proc.devRef .tc main_cst_2) = val_main_cst_2 (F := F)) :
    after hostOps0_1 V (Proc.devRef .tc main_v14) = val_main_v14 (F := F) x1 := by
  after_results_simp
  rw [h12, h13, hc]
  rfl
theorem h1_v3 : after hostOps0_1 V (Proc.devRef .tc main_v3) = V (Proc.devRef .tc main_v3) := by
  after_results_simp <;> rfl
theorem h1_v6 : after hostOps0_1 V (Proc.devRef .tc main_v6) = V (Proc.devRef .tc main_v6) := by
  after_results_simp <;> rfl
/-- The normalisation of every edge: the product of the two ends' inverse square roots. -/
theorem h2_v29 (x1 : (⟨S2x3200000, .i32⟩ : BufTy).Contents (Elt F))
    (h3 : V (Proc.devRef .tc main_v3) = val_main_v3 (F := F) x1)
    (h6 : V (Proc.devRef .tc main_v6) = val_main_v6 (F := F) x1)
    (h14 : V (Proc.devRef .tc main_v14) = val_main_v14 (F := F) x1) :
    after hostOps0_2 V (Proc.devRef .tc main_v29) = val_main_v29 (F := F) x1 := by
  after_results_simp
  rw [h3, h6, h14]
  rfl
theorem pre_v29 : after hostOps0_2 (after hostOps0_1 (after hostOps0 V)) (Proc.devRef .tc main_v29)
    = val_main_v29 (F := F) (V (Proc.devRef .tc main_arg1)) :=
  h2_v29 _ _ ((h1_v3 _).trans (h0_v3 V)) ((h1_v6 _).trans (h0_v6 V))
    (h1_v14 _ _ (h0_v12 V) (h0_v13 V) (h0_cst_2 V))
/-- and the launch arrays are untouched. -/
theorem pre_arg0 : after hostOps0_2 (after hostOps0_1 (after hostOps0 V)) (Proc.devRef .tc main_arg0) = V (Proc.devRef .tc main_arg0) := by
  after_results_simp <;> rfl
theorem pre_arg2 : after hostOps0_2 (after hostOps0_1 (after hostOps0 V)) (Proc.devRef .tc main_arg2) = V (Proc.devRef .tc main_arg2) := by
  after_results_simp <;> rfl
theorem pre_arg3 : after hostOps0_2 (after hostOps0_1 (after hostOps0 V)) (Proc.devRef .tc main_arg3) = V (Proc.devRef .tc main_arg3) := by
  after_results_simp <;> rfl
theorem pre_arg4 : after hostOps0_2 (after hostOps0_1 (after hostOps0 V)) (Proc.devRef .tc main_arg4) = V (Proc.devRef .tc main_arg4) := by
  after_results_simp <;> rfl
theorem pre_arg5 : after hostOps0_2 (after hostOps0_1 (after hostOps0 V)) (Proc.devRef .tc main_arg5) = V (Proc.devRef .tc main_arg5) := by
  after_results_simp <;> rfl

/-! Between the first region and the second. -/

/-- The first layer's neighbourhood sum, from the transformed rows, the edge stages and the normalisation. -/
theorem mid_v43 (x0 : (⟨S100000x128, .f32⟩ : BufTy).Contents (Elt F)) (x1 : (⟨S2x3200000, .i32⟩ : BufTy).Contents (Elt F)) (x2 : (⟨S128x16, .f32⟩ : BufTy).Contents (Elt F))
    (h30 : V (Proc.devRef .tc main_v30) = val_main_v30 (F := F) x0 x2)
    (h3 : V (Proc.devRef .tc main_v3) = val_main_v3 (F := F) x1)
    (h6 : V (Proc.devRef .tc main_v6) = val_main_v6 (F := F) x1)
    (h29 : V (Proc.devRef .tc main_v29) = val_main_v29 (F := F) x1) :
    after hostOps1 V (Proc.devRef .tc main_v43) = val_main_v43 (F := F) x0 x1 x2 := by
  after_results_simp
  rw [h30, h3, h6, h29]
  rfl
/-- The first bias as a one-row matrix. -/
theorem mid_v44 : after hostOps1 V (Proc.devRef .tc main_v44)
    = shapeCast S1x16 (V (Proc.devRef .tc main_arg3)) shapeCasts_S16_S1x16 := by
  after_results_simp <;> rfl
theorem mid_v3 : after hostOps1 V (Proc.devRef .tc main_v3) = V (Proc.devRef .tc main_v3) := by
  after_results_simp <;> rfl
theorem mid_v6 : after hostOps1 V (Proc.devRef .tc main_v6) = V (Proc.devRef .tc main_v6) := by
  after_results_simp <;> rfl
theorem mid_v29 : after hostOps1 V (Proc.devRef .tc main_v29) = V (Proc.devRef .tc main_v29) := by
  after_results_simp <;> rfl
theorem mid_arg4 : after hostOps1 V (Proc.devRef .tc main_arg4) = V (Proc.devRef .tc main_arg4) := by
  after_results_simp <;> rfl
theorem mid_arg5 : after hostOps1 V (Proc.devRef .tc main_arg5) = V (Proc.devRef .tc main_arg5) := by
  after_results_simp <;> rfl

/-! Between the third region and the last. -/

/-- The second layer's neighbourhood sum. -/
theorem post_v59 (x0 : (⟨S100000x128, .f32⟩ : BufTy).Contents (Elt F)) (x1 : (⟨S2x3200000, .i32⟩ : BufTy).Contents (Elt F)) (x2 : (⟨S128x16, .f32⟩ : BufTy).Contents (Elt F)) (x3 : (⟨S16, .f32⟩ : BufTy).Contents (Elt F)) (x4 : (⟨S16x64, .f32⟩ : BufTy).Contents (Elt F))
    (h46 : V (Proc.devRef .tc main_v46) = val_main_v78 (F := F) x0 x1 x2 x3 x4)
    (h3 : V (Proc.devRef .tc main_v3) = val_main_v51 (F := F) x1)
    (h6 : V (Proc.devRef .tc main_v6) = val_main_v54 (F := F) x1)
    (h29 : V (Proc.devRef .tc main_v29) = val_main_v77 (F := F) x1) :
    after hostOps3 V (Proc.devRef .tc main_v59) = val_main_v91 (F := F) x0 x1 x2 x3 x4 := by
  after_results_simp
  rw [h46, h3, h6, h29]
  rfl
/-- The second bias as a one-row matrix. -/
theorem post_v60 : after hostOps3 V (Proc.devRef .tc main_v60)
    = shapeCast S1x64 (V (Proc.devRef .tc main_arg5)) shapeCasts_S64_S1x64 := by
  after_results_simp <;> rfl

/-- The reference computes the edge stages once per layer; the second computation is the first's. -/
theorem edges_again (x1 : (⟨S2x3200000, .i32⟩ : BufTy).Contents (Elt F)) :
    val_main_v51 (F := F) x1 = val_main_v3 (F := F) x1 ∧ val_main_v54 (F := F) x1 = val_main_v6 (F := F) x1
      ∧ val_main_v77 (F := F) x1 = val_main_v29 (F := F) x1 := ⟨rfl, rfl, rfl⟩

end Stretches

end Cert.KernelIdeal.HostStretch

namespace Cert.KernelIdeal.Walk

open Cert.KernelIdeal Cert.KernelIdeal.Gen Cert.ReferenceIdeal.Read Cert.KernelIdeal.HostStretch

variable (m : (ℓ : Loc nD τ sig) → Buf (Elt Ideal) ℓ) (ρ : Dev nD → PrngReg) (c : Dev nD)

/-! ## The walk from the launch to the return, at the extended reals

`a0 … a5` are the six launch arrays on core `c`. -/

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-! ### At the first region's entry -/

theorem e0_v3 : W3 m ρ c (Proc.devRef .tc main_v3) = val_main_v3 (F := Ideal) (a1 m c) := pre_v3 (W0 m ρ c)
theorem e0_v6 : W3 m ρ c (Proc.devRef .tc main_v6) = val_main_v6 (F := Ideal) (a1 m c) := pre_v6 (W0 m ρ c)
theorem e0_v29 : W3 m ρ c (Proc.devRef .tc main_v29) = val_main_v29 (F := Ideal) (a1 m c) := pre_v29 (W0 m ρ c)
theorem e0_arg0 : W3 m ρ c (Proc.devRef .tc main_arg0) = a0 m c := pre_arg0 (W0 m ρ c)
theorem e0_arg2 : W3 m ρ c (Proc.devRef .tc main_arg2) = a2 m c := pre_arg2 (W0 m ρ c)
theorem e0_arg3 : W3 m ρ c (Proc.devRef .tc main_arg3) = a3 m c := pre_arg3 (W0 m ρ c)
theorem e0_arg4 : W3 m ρ c (Proc.devRef .tc main_arg4) = a4 m c := pre_arg4 (W0 m ρ c)
theorem e0_arg5 : W3 m ρ c (Proc.devRef .tc main_arg5) = a5 m c := pre_arg5 (W0 m ρ c)

/-! ### After the first region: the transformed rows X · W1 -/

theorem x0_v30 : W4 m ρ c (Proc.devRef .tc main_v30) = val_main_v30 (F := Ideal) (a0 m c) (a2 m c) := by
  refine (W4_arr m ρ c 2).trans ((Region0.value (V3 m ρ) c).trans ?_)
  rw [show V3 m ρ c main_arg0 = a0 m c from e0_arg0 m ρ c, show V3 m ρ c main_arg2 = a2 m c from e0_arg2 m ρ c]
  exact (Cert.ReferenceIdeal.Dense.dot1_eq _ _).symm
theorem x0_v3 : W4 m ρ c (Proc.devRef .tc main_v3) = val_main_v3 (F := Ideal) (a1 m c) :=
  (W4_of_ne m ρ c main_v3 (by decide)).trans (e0_v3 m ρ c)
theorem x0_v6 : W4 m ρ c (Proc.devRef .tc main_v6) = val_main_v6 (F := Ideal) (a1 m c) :=
  (W4_of_ne m ρ c main_v6 (by decide)).trans (e0_v6 m ρ c)
theorem x0_v29 : W4 m ρ c (Proc.devRef .tc main_v29) = val_main_v29 (F := Ideal) (a1 m c) :=
  (W4_of_ne m ρ c main_v29 (by decide)).trans (e0_v29 m ρ c)
theorem x0_arg3 : W4 m ρ c (Proc.devRef .tc main_arg3) = a3 m c :=
  (W4_of_ne m ρ c main_arg3 (by decide)).trans (e0_arg3 m ρ c)
theorem x0_arg4 : W4 m ρ c (Proc.devRef .tc main_arg4) = a4 m c :=
  (W4_of_ne m ρ c main_arg4 (by decide)).trans (e0_arg4 m ρ c)
theorem x0_arg5 : W4 m ρ c (Proc.devRef .tc main_arg5) = a5 m c :=
  (W4_of_ne m ρ c main_arg5 (by decide)).trans (e0_arg5 m ρ c)

/-! ### At the second region's entry: the first layer's neighbourhood sum and its bias row -/

theorem e1_v43 : W5 m ρ c (Proc.devRef .tc main_v43) = val_main_v43 (F := Ideal) (a0 m c) (a1 m c) (a2 m c) :=
  mid_v43 (W4 m ρ c) _ _ _ (x0_v30 m ρ c) (x0_v3 m ρ c) (x0_v6 m ρ c) (x0_v29 m ρ c)
theorem e1_v44 : W5 m ρ c (Proc.devRef .tc main_v44) = shapeCast S1x16 (a3 m c) shapeCasts_S16_S1x16 :=
  (mid_v44 (W4 m ρ c)).trans (by rw [x0_arg3])
theorem e1_v3 : W5 m ρ c (Proc.devRef .tc main_v3) = val_main_v3 (F := Ideal) (a1 m c) := (mid_v3 (W4 m ρ c)).trans (x0_v3 m ρ c)
theorem e1_v6 : W5 m ρ c (Proc.devRef .tc main_v6) = val_main_v6 (F := Ideal) (a1 m c) := (mid_v6 (W4 m ρ c)).trans (x0_v6 m ρ c)
theorem e1_v29 : W5 m ρ c (Proc.devRef .tc main_v29) = val_main_v29 (F := Ideal) (a1 m c) := (mid_v29 (W4 m ρ c)).trans (x0_v29 m ρ c)
theorem e1_arg4 : W5 m ρ c (Proc.devRef .tc main_arg4) = a4 m c := (mid_arg4 (W4 m ρ c)).trans (x0_arg4 m ρ c)
theorem e1_arg5 : W5 m ρ c (Proc.devRef .tc main_arg5) = a5 m c := (mid_arg5 (W4 m ρ c)).trans (x0_arg5 m ρ c)

/-! ### After the second region: bias and rectifier, the reference's first layer -/

theorem x1_v45 : W6 m ρ c (Proc.devRef .tc main_v45) = val_main_v47 (F := Ideal) (a0 m c) (a1 m c) (a2 m c) (a3 m c) := by
  refine (W6_arr m ρ c 2).trans ((Region1.value (V5 m ρ) c).trans ?_)
  rw [show V5 m ρ c main_v43 = _ from e1_v43 m ρ c, show V5 m ρ c main_v44 = _ from e1_v44 m ρ c,
    Cert.Gcn.biasReluRow_of_vec]
  exact (Cert.ReferenceIdeal.Dense.relu_eq _ _).symm
theorem x1_v3 : W6 m ρ c (Proc.devRef .tc main_v3) = val_main_v3 (F := Ideal) (a1 m c) :=
  (W6_of_ne m ρ c main_v3 (by decide)).trans (e1_v3 m ρ c)
theorem x1_v6 : W6 m ρ c (Proc.devRef .tc main_v6) = val_main_v6 (F := Ideal) (a1 m c) :=
  (W6_of_ne m ρ c main_v6 (by decide)).trans (e1_v6 m ρ c)
theorem x1_v29 : W6 m ρ c (Proc.devRef .tc main_v29) = val_main_v29 (F := Ideal) (a1 m c) :=
  (W6_of_ne m ρ c main_v29 (by decide)).trans (e1_v29 m ρ c)
theorem x1_arg4 : W6 m ρ c (Proc.devRef .tc main_arg4) = a4 m c :=
  (W6_of_ne m ρ c main_arg4 (by decide)).trans (e1_arg4 m ρ c)
theorem x1_arg5 : W6 m ρ c (Proc.devRef .tc main_arg5) = a5 m c :=
  (W6_of_ne m ρ c main_arg5 (by decide)).trans (e1_arg5 m ρ c)

/-! ### After the third region: the second layer's transformed rows -/

theorem x2_v46 : W7 m ρ c (Proc.devRef .tc main_v46) = val_main_v78 (F := Ideal) (a0 m c) (a1 m c) (a2 m c) (a3 m c) (a4 m c) := by
  refine (W7_arr m ρ c 2).trans ((Region2.value (V6 m ρ) c).trans ?_)
  rw [show V6 m ρ c main_v45 = _ from x1_v45 m ρ c, show V6 m ρ c main_arg4 = _ from x1_arg4 m ρ c]
  exact (Cert.ReferenceIdeal.Dense.dot2_eq _ _).symm
theorem x2_v3 : W7 m ρ c (Proc.devRef .tc main_v3) = val_main_v3 (F := Ideal) (a1 m c) :=
  (W7_of_ne m ρ c main_v3 (by decide)).trans (x1_v3 m ρ c)
theorem x2_v6 : W7 m ρ c (Proc.devRef .tc main_v6) = val_main_v6 (F := Ideal) (a1 m c) :=
  (W7_of_ne m ρ c main_v6 (by decide)).trans (x1_v6 m ρ c)
theorem x2_v29 : W7 m ρ c (Proc.devRef .tc main_v29) = val_main_v29 (F := Ideal) (a1 m c) :=
  (W7_of_ne m ρ c main_v29 (by decide)).trans (x1_v29 m ρ c)
theorem x2_arg5 : W7 m ρ c (Proc.devRef .tc main_arg5) = a5 m c :=
  (W7_of_ne m ρ c main_arg5 (by decide)).trans (x1_arg5 m ρ c)

/-! ### At the last region's entry: the second layer's neighbourhood sum and its bias row -/

theorem e3_v59 : W8 m ρ c (Proc.devRef .tc main_v59) = val_main_v91 (F := Ideal) (a0 m c) (a1 m c) (a2 m c) (a3 m c) (a4 m c) :=
  post_v59 (W7 m ρ c) _ _ _ _ _ (x2_v46 m ρ c)
    ((x2_v3 m ρ c).trans (edges_again (a1 m c)).1.symm) ((x2_v6 m ρ c).trans (edges_again (a1 m c)).2.1.symm)
    ((x2_v29 m ρ c).trans (edges_again (a1 m c)).2.2.symm)
theorem e3_v60 : W8 m ρ c (Proc.devRef .tc main_v60) = shapeCast S1x64 (a5 m c) shapeCasts_S64_S1x64 :=
  (post_v60 (W7 m ρ c)).trans (by rw [x2_arg5])

/-! ### At the return: bias and log-softmax, the reference's result -/

theorem result : W9 m ρ c (Proc.devRef .tc main_v61)
    = val_main_v95 (F := Ideal) (a0 m c) (a1 m c) (a2 m c) (a3 m c) (a4 m c) (a5 m c) := by
  refine (W9_arr m ρ c 2).trans ((Region3.value (V8 m ρ) c).trans ?_)
  rw [show V8 m ρ c main_v59 = _ from e3_v59 m ρ c, show V8 m ρ c main_v60 = _ from e3_v60 m ρ c,
    Cert.Gcn.logSoftmaxRow_of_vec]
  exact (Cert.ReferenceIdeal.Dense.lsm_eq _ _).symm

end Cert.KernelIdeal.Walk

end
-- ==== Proof.RefRunTail.lean ====
/-
  The reference's run: the stretch of host operations that forms the second layer's biased aggregate.

  What a buffer holds after a stretch of operations is the composition of those operations' functions, applied to what the
  buffers the stretch reads held before it. Operations 104 … 123 form, from the first layer's output, the edge lists, the
  edge weights, the second weight matrix and the second bias, the second layer's aggregated array plus its bias row:
  a matrix product, a gather along the edges' sources, a scaling by the edge weights, a scatter-add onto the edges'
  targets, and the bias repeated down the rows. The stretch is read back operation by operation
  and agrees, term for term, with the layered value of its last buffer.
-/
import proofs.«135939_j43782896616158_1_alg».proof.Proof.RefOps
import proofs.«135939_j43782896616158_1_alg».proof.Proof.RefRead
import Idealize.ShloMosaic.Lib.StableHlo.Run

set_option maxRecDepth 16384

noncomputable section

namespace Cert.ReferenceIdeal.RunStages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (V : Valuation τ sig (Elt F))

/-- After operations 104 … 123, the buffer of the second layer's biased aggregate holds its layered value, given that the
    six buffers the stretch reads held theirs. -/
theorem tail_v94 (x0 : (⟨S100000x128, .f32⟩ : BufTy).Contents (Elt F)) (x1 : (⟨S2x3200000, .i32⟩ : BufTy).Contents (Elt F))
    (x2 : (⟨S128x16, .f32⟩ : BufTy).Contents (Elt F)) (x3 : (⟨S16, .f32⟩ : BufTy).Contents (Elt F))
    (x4 : (⟨S16x64, .f32⟩ : BufTy).Contents (Elt F)) (x5 : (⟨S64, .f32⟩ : BufTy).Contents (Elt F))
    (h47 : V (Proc.devRef .tc main_v47) = Read.val_main_v47 (F := F) x0 x1 x2 x3)
    (h51 : V (Proc.devRef .tc main_v51) = Read.val_main_v51 (F := F) x1)
    (h54 : V (Proc.devRef .tc main_v54) = Read.val_main_v54 (F := F) x1)
    (h77 : V (Proc.devRef .tc main_v77) = Read.val_main_v77 (F := F) x1)
    (h4 : V (Proc.devRef .tc main_arg4) = x4) (h5 : V (Proc.devRef .tc main_arg5) = x5) :
    after (((ops (F := F)).drop 103).take 20) V (Proc.devRef .tc main_v94) = Read.val_main_v94 (F := F) x0 x1 x2 x3 x4 x5 := by
  simp only [ops, List.drop_succ_cons, List.drop_zero, List.take_succ_cons, List.take_zero]
  after_results_simp
  rw [h47, h51, h54, h77, h4, h5]
  rfl

end Cert.ReferenceIdeal.RunStages

end
-- ==== Proof.RefRunLsm.lean ====
/-
  The last fifteen operations of the reference: the row-wise log-softmax of the second layer's biased aggregate Z.

  They compute, row by row, M = max over the row of Z (from −∞), the shifted row Z − M, the sum of its exponentials, the
  logarithm of that sum, and the shifted row less that logarithm. Each of these operations belongs to a module-local
  function, whose values are carried to their buffers' types and back; such a round trip is the identity, so once the
  round trips are removed the contents of the result buffer after the stretch are the operations' composed term over Z,
  which is the layered value of the result.
-/
import proofs.«135939_j43782896616158_1_alg».proof.Proof.RefOps
import proofs.«135939_j43782896616158_1_alg».proof.Proof.RefRead
import Idealize.ShloMosaic.Lib.StableHlo.Run

set_option maxRecDepth 16384

noncomputable section

namespace Cert.ReferenceIdeal.RunStages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Contents carried to a typed reference's buffer and back are the contents. -/
theorem lsm_ofBuf_toBuf {T : BufTy} (x : TRef sig T) (v : T.Contents (Elt F)) : x.ofBuf (x.toBuf v) = v := by
  obtain ⟨r, h, h1, h2⟩ := x
  subst h
  rfl

/-- After operations 124 … 138, the result buffer holds the layered value of the row-wise log-softmax, given that the
    buffer the stretch reads held the biased aggregate. -/
theorem lsm_v95 (V : Valuation τ sig (Elt F)) (x0 : (⟨S100000x128, .f32⟩ : BufTy).Contents (Elt F)) (x1 : (⟨S2x3200000, .i32⟩ : BufTy).Contents (Elt F))
    (x2 : (⟨S128x16, .f32⟩ : BufTy).Contents (Elt F)) (x3 : (⟨S16, .f32⟩ : BufTy).Contents (Elt F))
    (x4 : (⟨S16x64, .f32⟩ : BufTy).Contents (Elt F)) (x5 : (⟨S64, .f32⟩ : BufTy).Contents (Elt F))
    (h94 : V (Proc.devRef .tc main_v94) = Read.val_main_v94 (F := F) x0 x1 x2 x3 x4 x5) :
    after ((ops (F := F)).drop 123) V (Proc.devRef .tc main_v95) = Read.val_main_v95 (F := F) x0 x1 x2 x3 x4 x5 := by
  have hv : (TRef.of (T := ⟨S100000x64, .f32⟩) main_v94).ofBuf (V (Proc.devRef .tc main_v94))
      = Read.val_main_v94 (F := F) x0 x1 x2 x3 x4 x5 := h94
  simp only [ops, List.drop_succ_cons, List.drop_zero]
  after_results_simp
  simp only [lsm_ofBuf_toBuf]
  rw [hv]
  rfl

end Cert.ReferenceIdeal.RunStages

end
-- ==== Proof.RefRunStages.lean ====
/-
  The reference's run, stage by stage.

  The reference's @main is a straight line of 138 host operations. The contents of the buffers after a line of operations
  are a fold of the operations' results; the fold over the whole line is cut into seven stretches (the contents after a
  line are the contents after its tail, from the contents after its head):

    operations   1 …   7   the two index vectors of the first edge stage (each a row of the edge list, node numbers appended)
    operations   8 …  40   the first edge stage's weights, from the two index vectors
    operations  41 …  63   the first layer (product, weighted neighbourhood sum, bias, rectifier)
    operations  64 …  70   the two index vectors again
    operations  71 … 103   the second edge stage's weights
    operations 104 … 123   the second layer up to the biased aggregate
    operations 124 … 138   the row-wise log-softmax

  For each stretch: if the buffers it reads hold their layered values (each operation applied to the layered values of its
  operands, as functions of the six launch arrays), then the buffer it is read for holds its layered value afterwards; and
  a buffer the stretch does not write keeps its contents. Chained, the result buffer after the whole line holds the
  layered value of the result, and no operation writes an argument. The run theorem then reads every weakly fair
  execution's final memory off the fold.
-/
import proofs.«135939_j43782896616158_1_alg».proof.Proof.RefOps
import proofs.«135939_j43782896616158_1_alg».proof.Proof.RefRead
import proofs.«135939_j43782896616158_1_alg».proof.Proof.RefRunTail
import proofs.«135939_j43782896616158_1_alg».proof.Proof.RefRunLsm
import Idealize.ShloMosaic.Lib.StableHlo.Run
import Idealize.ShloMosaic.Lib.Pipeline.Frame

set_option maxRecDepth 16384

noncomputable section

namespace Cert.ReferenceIdeal.RunStages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## Cutting a line of operations

The contents after a line are the contents after its tail from the contents after its head. -/

theorem after_take_drop (l : List (HloOp τ sig (Elt F))) (k : ℕ) (V : Valuation τ sig (Elt F)) :
    after l V = after (l.drop k) (after (l.take k) V) := by
  rw [← StableHlo.after_append, List.take_append_drop]

theorem after_cut (l : List (HloOp τ sig (Elt F))) (j d k : ℕ) (h : j + d = k) (V : Valuation τ sig (Elt F)) :
    after (l.drop j) V = after (l.drop k) (after ((l.drop j).take d) V) := by
  rw [after_take_drop (l.drop j) d V, List.drop_drop, h]

/-! ## The first edge stage: operations 1 to 7 build the two index vectors (each a row of the edge list with the
node numbers appended), operations 8 to 40 the edge weights from them. -/

theorem a1_v3 (V : Valuation τ sig (Elt F)) (x1 : (⟨S2x3200000, .i32⟩ : BufTy).Contents (Elt F))
    (h1 : V (Proc.devRef .tc main_arg1) = x1) :
    after ((ops (F := F)).take 7) V (Proc.devRef .tc main_v3) = Read.val_main_v3 x1 := by
  subst h1
  simp only [ops, List.take_succ_cons, List.take_zero]
  after_results
  rfl

theorem a1_v6 (V : Valuation τ sig (Elt F)) (x1 : (⟨S2x3200000, .i32⟩ : BufTy).Contents (Elt F))
    (h1 : V (Proc.devRef .tc main_arg1) = x1) :
    after ((ops (F := F)).take 7) V (Proc.devRef .tc main_v6) = Read.val_main_v6 x1 := by
  subst h1
  simp only [ops, List.take_succ_cons, List.take_zero]
  after_results
  rfl

theorem keep_A1_arg0 (V : Valuation τ sig (Elt F)) :
    after ((ops (F := F)).take 7) V (Proc.devRef .tc main_arg0) = V (Proc.devRef .tc main_arg0) := by
  simp only [ops, List.take_succ_cons, List.take_zero]
  after_results_simp

theorem keep_A1_arg1 (V : Valuation τ sig (Elt F)) :
    after ((ops (F := F)).take 7) V (Proc.devRef .tc main_arg1) = V (Proc.devRef .tc main_arg1) := by
  simp only [ops, List.take_succ_cons, List.take_zero]
  after_results_simp

theorem keep_A1_arg2 (V : Valuation τ sig (Elt F)) :
    after ((ops (F := F)).take 7) V (Proc.devRef .tc main_arg2) = V (Proc.devRef .tc main_arg2) := by
  simp only [ops, List.take_succ_cons, List.take_zero]
  after_results_simp

theorem keep_A1_arg3 (V : Valuation τ sig (Elt F)) :
    after ((ops (F := F)).take 7) V (Proc.devRef .tc main_arg3) = V (Proc.devRef .tc main_arg3) := by
  simp only [ops, List.take_succ_cons, List.take_zero]
  after_results_simp

theorem keep_A1_arg4 (V : Valuation τ sig (Elt F)) :
    after ((ops (F := F)).take 7) V (Proc.devRef .tc main_arg4) = V (Proc.devRef .tc main_arg4) := by
  simp only [ops, List.take_succ_cons, List.take_zero]
  after_results_simp

theorem keep_A1_arg5 (V : Valuation τ sig (Elt F)) :
    after ((ops (F := F)).take 7) V (Proc.devRef .tc main_arg5) = V (Proc.devRef .tc main_arg5) := by
  simp only [ops, List.take_succ_cons, List.take_zero]
  after_results_simp

theorem a2_v29 (V : Valuation τ sig (Elt F)) (x1 : (⟨S2x3200000, .i32⟩ : BufTy).Contents (Elt F))
    (h3 : V (Proc.devRef .tc main_v3) = Read.val_main_v3 x1) (h6 : V (Proc.devRef .tc main_v6) = Read.val_main_v6 x1) :
    after (((ops (F := F)).drop 7).take 33) V (Proc.devRef .tc main_v29) = Read.val_main_v29 x1 := by
  simp only [ops, List.drop_succ_cons, List.drop_zero, List.take_succ_cons, List.take_zero]
  after_results_simp
  rw [h3, h6]
  rfl

theorem keep_A2_v3 (V : Valuation τ sig (Elt F)) :
    after (((ops (F := F)).drop 7).take 33) V (Proc.devRef .tc main_v3) = V (Proc.devRef .tc main_v3) := by
  simp only [ops, List.drop_succ_cons, List.drop_zero, List.take_succ_cons, List.take_zero]
  after_results_simp

theorem keep_A2_v6 (V : Valuation τ sig (Elt F)) :
    after (((ops (F := F)).drop 7).take 33) V (Proc.devRef .tc main_v6) = V (Proc.devRef .tc main_v6) := by
  simp only [ops, List.drop_succ_cons, List.drop_zero, List.take_succ_cons, List.take_zero]
  after_results_simp

theorem keep_A2_arg0 (V : Valuation τ sig (Elt F)) :
    after (((ops (F := F)).drop 7).take 33) V (Proc.devRef .tc main_arg0) = V (Proc.devRef .tc main_arg0) := by
  simp only [ops, List.drop_succ_cons, List.drop_zero, List.take_succ_cons, List.take_zero]
  after_results_simp

theorem keep_A2_arg1 (V : Valuation τ sig (Elt F)) :
    after (((ops (F := F)).drop 7).take 33) V (Proc.devRef .tc main_arg1) = V (Proc.devRef .tc main_arg1) := by
  simp only [ops, List.drop_succ_cons, List.drop_zero, List.take_succ_cons, List.take_zero]
  after_results_simp

theorem keep_A2_arg2 (V : Valuation τ sig (Elt F)) :
    after (((ops (F := F)).drop 7).take 33) V (Proc.devRef .tc main_arg2) = V (Proc.devRef .tc main_arg2) := by
  simp only [ops, List.drop_succ_cons, List.drop_zero, List.take_succ_cons, List.take_zero]
  after_results_simp

theorem keep_A2_arg3 (V : Valuation τ sig (Elt F)) :
    after (((ops (F := F)).drop 7).take 33) V (Proc.devRef .tc main_arg3) = V (Proc.devRef .tc main_arg3) := by
  simp only [ops, List.drop_succ_cons, List.drop_zero, List.take_succ_cons, List.take_zero]
  after_results_simp

theorem keep_A2_arg4 (V : Valuation τ sig (Elt F)) :
    after (((ops (F := F)).drop 7).take 33) V (Proc.devRef .tc main_arg4) = V (Proc.devRef .tc main_arg4) := by
  simp only [ops, List.drop_succ_cons, List.drop_zero, List.take_succ_cons, List.take_zero]
  after_results_simp

theorem keep_A2_arg5 (V : Valuation τ sig (Elt F)) :
    after (((ops (F := F)).drop 7).take 33) V (Proc.devRef .tc main_arg5) = V (Proc.devRef .tc main_arg5) := by
  simp only [ops, List.drop_succ_cons, List.drop_zero, List.take_succ_cons, List.take_zero]
  after_results_simp

/-! ## The first layer: operations 41 to 63, from the features, the two weights' operands and the edge stage. -/

theorem b_v47 (V : Valuation τ sig (Elt F)) (x0 : (⟨S100000x128, .f32⟩ : BufTy).Contents (Elt F)) (x1 : (⟨S2x3200000, .i32⟩ : BufTy).Contents (Elt F)) (x2 : (⟨S128x16, .f32⟩ : BufTy).Contents (Elt F)) (x3 : (⟨S16, .f32⟩ : BufTy).Contents (Elt F))
    (h0 : V (Proc.devRef .tc main_arg0) = x0) (h2 : V (Proc.devRef .tc main_arg2) = x2) (ha3 : V (Proc.devRef .tc main_arg3) = x3)
    (h3 : V (Proc.devRef .tc main_v3) = Read.val_main_v3 x1) (h6 : V (Proc.devRef .tc main_v6) = Read.val_main_v6 x1)
    (h29 : V (Proc.devRef .tc main_v29) = Read.val_main_v29 x1) :
    after (((ops (F := F)).drop 40).take 23) V (Proc.devRef .tc main_v47) = Read.val_main_v47 x0 x1 x2 x3 := by
  subst h0 h2 ha3
  simp only [ops, List.drop_succ_cons, List.drop_zero, List.take_succ_cons, List.take_zero]
  after_results_simp
  rw [h3, h6, h29]
  rfl

theorem keep_B_arg1 (V : Valuation τ sig (Elt F)) :
    after (((ops (F := F)).drop 40).take 23) V (Proc.devRef .tc main_arg1) = V (Proc.devRef .tc main_arg1) := by
  simp only [ops, List.drop_succ_cons, List.drop_zero, List.take_succ_cons, List.take_zero]
  after_results_simp

theorem keep_B_arg4 (V : Valuation τ sig (Elt F)) :
    after (((ops (F := F)).drop 40).take 23) V (Proc.devRef .tc main_arg4) = V (Proc.devRef .tc main_arg4) := by
  simp only [ops, List.drop_succ_cons, List.drop_zero, List.take_succ_cons, List.take_zero]
  after_results_simp

theorem keep_B_arg5 (V : Valuation τ sig (Elt F)) :
    after (((ops (F := F)).drop 40).take 23) V (Proc.devRef .tc main_arg5) = V (Proc.devRef .tc main_arg5) := by
  simp only [ops, List.drop_succ_cons, List.drop_zero, List.take_succ_cons, List.take_zero]
  after_results_simp

/-! ## The second edge stage: operations 64 to 70 and 71 to 103, the first edge stage's twins. -/

theorem c1_v51 (V : Valuation τ sig (Elt F)) (x1 : (⟨S2x3200000, .i32⟩ : BufTy).Contents (Elt F))
    (h1 : V (Proc.devRef .tc main_arg1) = x1) :
    after (((ops (F := F)).drop 63).take 7) V (Proc.devRef .tc main_v51) = Read.val_main_v51 x1 := by
  subst h1
  simp only [ops, List.drop_succ_cons, List.drop_zero, List.take_succ_cons, List.take_zero]
  after_results
  rfl

theorem c1_v54 (V : Valuation τ sig (Elt F)) (x1 : (⟨S2x3200000, .i32⟩ : BufTy).Contents (Elt F))
    (h1 : V (Proc.devRef .tc main_arg1) = x1) :
    after (((ops (F := F)).drop 63).take 7) V (Proc.devRef .tc main_v54) = Read.val_main_v54 x1 := by
  subst h1
  simp only [ops, List.drop_succ_cons, List.drop_zero, List.take_succ_cons, List.take_zero]
  after_results
  rfl

theorem keep_C1_v47 (V : Valuation τ sig (Elt F)) :
    after (((ops (F := F)).drop 63).take 7) V (Proc.devRef .tc main_v47) = V (Proc.devRef .tc main_v47) := by
  simp only [ops, List.drop_succ_cons, List.drop_zero, List.take_succ_cons, List.take_zero]
  after_results_simp

theorem keep_C1_arg4 (V : Valuation τ sig (Elt F)) :
    after (((ops (F := F)).drop 63).take 7) V (Proc.devRef .tc main_arg4) = V (Proc.devRef .tc main_arg4) := by
  simp only [ops, List.drop_succ_cons, List.drop_zero, List.take_succ_cons, List.take_zero]
  after_results_simp

theorem keep_C1_arg5 (V : Valuation τ sig (Elt F)) :
    after (((ops (F := F)).drop 63).take 7) V (Proc.devRef .tc main_arg5) = V (Proc.devRef .tc main_arg5) := by
  simp only [ops, List.drop_succ_cons, List.drop_zero, List.take_succ_cons, List.take_zero]
  after_results_simp

theorem c2_v77 (V : Valuation τ sig (Elt F)) (x1 : (⟨S2x3200000, .i32⟩ : BufTy).Contents (Elt F))
    (h51 : V (Proc.devRef .tc main_v51) = Read.val_main_v51 x1) (h54 : V (Proc.devRef .tc main_v54) = Read.val_main_v54 x1) :
    after (((ops (F := F)).drop 70).take 33) V (Proc.devRef .tc main_v77) = Read.val_main_v77 x1 := by
  simp only [ops, List.drop_succ_cons, List.drop_zero, List.take_succ_cons, List.take_zero]
  after_results_simp
  rw [h51, h54]
  rfl

theorem keep_C2_v47 (V : Valuation τ sig (Elt F)) :
    after (((ops (F := F)).drop 70).take 33) V (Proc.devRef .tc main_v47) = V (Proc.devRef .tc main_v47) := by
  simp only [ops, List.drop_succ_cons, List.drop_zero, List.take_succ_cons, List.take_zero]
  after_results_simp

theorem keep_C2_v51 (V : Valuation τ sig (Elt F)) :
    after (((ops (F := F)).drop 70).take 33) V (Proc.devRef .tc main_v51) = V (Proc.devRef .tc main_v51) := by
  simp only [ops, List.drop_succ_cons, List.drop_zero, List.take_succ_cons, List.take_zero]
  after_results_simp

theorem keep_C2_v54 (V : Valuation τ sig (Elt F)) :
    after (((ops (F := F)).drop 70).take 33) V (Proc.devRef .tc main_v54) = V (Proc.devRef .tc main_v54) := by
  simp only [ops, List.drop_succ_cons, List.drop_zero, List.take_succ_cons, List.take_zero]
  after_results_simp

theorem keep_C2_arg4 (V : Valuation τ sig (Elt F)) :
    after (((ops (F := F)).drop 70).take 33) V (Proc.devRef .tc main_arg4) = V (Proc.devRef .tc main_arg4) := by
  simp only [ops, List.drop_succ_cons, List.drop_zero, List.take_succ_cons, List.take_zero]
  after_results_simp

theorem keep_C2_arg5 (V : Valuation τ sig (Elt F)) :
    after (((ops (F := F)).drop 70).take 33) V (Proc.devRef .tc main_arg5) = V (Proc.devRef .tc main_arg5) := by
  simp only [ops, List.drop_succ_cons, List.drop_zero, List.take_succ_cons, List.take_zero]
  after_results_simp

/-! ## The whole line

The seven stretches in a row: each stage's result is carried by the kept-buffer lemmas to the stage that reads it. -/

theorem after_ops_v95 (V : Valuation τ sig (Elt F)) :
    after (ops (F := F)) V (Proc.devRef .tc main_v95) = Read.val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨V1, e1⟩ : ∃ V1, V1 = after ((ops (F := F)).take 7) V := ⟨_, rfl⟩
  obtain ⟨V2, e2⟩ : ∃ V2, V2 = after (((ops (F := F)).drop 7).take 33) V1 := ⟨_, rfl⟩
  obtain ⟨V3, e3⟩ : ∃ V3, V3 = after (((ops (F := F)).drop 40).take 23) V2 := ⟨_, rfl⟩
  obtain ⟨V4, e4⟩ : ∃ V4, V4 = after (((ops (F := F)).drop 63).take 7) V3 := ⟨_, rfl⟩
  obtain ⟨V5, e5⟩ : ∃ V5, V5 = after (((ops (F := F)).drop 70).take 33) V4 := ⟨_, rfl⟩
  obtain ⟨V6, e6⟩ : ∃ V6, V6 = after (((ops (F := F)).drop 103).take 20) V5 := ⟨_, rfl⟩
  have e : after (ops (F := F)) V = after ((ops (F := F)).drop 123) V6 := by
    rw [e6, e5, e4, e3, e2, e1, after_take_drop ops 7 V, after_cut ops 7 33 40 rfl, after_cut ops 40 23 63 rfl,
      after_cut ops 63 7 70 rfl, after_cut ops 70 33 103 rfl, after_cut ops 103 20 123 rfl]
  -- after operations 1 to 7
  have h3_1 : V1 (Proc.devRef .tc main_v3) = Read.val_main_v3 (F := F) (V (Proc.devRef .tc main_arg1)) := by rw [e1]; exact a1_v3 V _ rfl
  have h6_1 : V1 (Proc.devRef .tc main_v6) = Read.val_main_v6 (F := F) (V (Proc.devRef .tc main_arg1)) := by rw [e1]; exact a1_v6 V _ rfl
  have a0_1 : V1 (Proc.devRef .tc main_arg0) = V (Proc.devRef .tc main_arg0) := by rw [e1]; exact keep_A1_arg0 V
  have a1_1 : V1 (Proc.devRef .tc main_arg1) = V (Proc.devRef .tc main_arg1) := by rw [e1]; exact keep_A1_arg1 V
  have a2_1 : V1 (Proc.devRef .tc main_arg2) = V (Proc.devRef .tc main_arg2) := by rw [e1]; exact keep_A1_arg2 V
  have a3_1 : V1 (Proc.devRef .tc main_arg3) = V (Proc.devRef .tc main_arg3) := by rw [e1]; exact keep_A1_arg3 V
  have a4_1 : V1 (Proc.devRef .tc main_arg4) = V (Proc.devRef .tc main_arg4) := by rw [e1]; exact keep_A1_arg4 V
  have a5_1 : V1 (Proc.devRef .tc main_arg5) = V (Proc.devRef .tc main_arg5) := by rw [e1]; exact keep_A1_arg5 V
  -- after operations 8 to 40
  have h29_2 : V2 (Proc.devRef .tc main_v29) = Read.val_main_v29 (F := F) (V (Proc.devRef .tc main_arg1)) := by rw [e2]; exact a2_v29 V1 _ h3_1 h6_1
  have h3_2 : V2 (Proc.devRef .tc main_v3) = Read.val_main_v3 (F := F) (V (Proc.devRef .tc main_arg1)) := by rw [e2]; exact (keep_A2_v3 V1).trans h3_1
  have h6_2 : V2 (Proc.devRef .tc main_v6) = Read.val_main_v6 (F := F) (V (Proc.devRef .tc main_arg1)) := by rw [e2]; exact (keep_A2_v6 V1).trans h6_1
  have a0_2 : V2 (Proc.devRef .tc main_arg0) = V (Proc.devRef .tc main_arg0) := by rw [e2]; exact (keep_A2_arg0 V1).trans a0_1
  have a1_2 : V2 (Proc.devRef .tc main_arg1) = V (Proc.devRef .tc main_arg1) := by rw [e2]; exact (keep_A2_arg1 V1).trans a1_1
  have a2_2 : V2 (Proc.devRef .tc main_arg2) = V (Proc.devRef .tc main_arg2) := by rw [e2]; exact (keep_A2_arg2 V1).trans a2_1
  have a3_2 : V2 (Proc.devRef .tc main_arg3) = V (Proc.devRef .tc main_arg3) := by rw [e2]; exact (keep_A2_arg3 V1).trans a3_1
  have a4_2 : V2 (Proc.devRef .tc main_arg4) = V (Proc.devRef .tc main_arg4) := by rw [e2]; exact (keep_A2_arg4 V1).trans a4_1
  have a5_2 : V2 (Proc.devRef .tc main_arg5) = V (Proc.devRef .tc main_arg5) := by rw [e2]; exact (keep_A2_arg5 V1).trans a5_1
  -- after operations 41 to 63
  have h47_3 : V3 (Proc.devRef .tc main_v47) = Read.val_main_v47 (F := F) (V (Proc.devRef .tc main_arg0)) (V (Proc.devRef .tc main_arg1)) (V (Proc.devRef .tc main_arg2)) (V (Proc.devRef .tc main_arg3)) := by
    rw [e3]; exact b_v47 V2 _ _ _ _ a0_2 a2_2 a3_2 h3_2 h6_2 h29_2
  have a1_3 : V3 (Proc.devRef .tc main_arg1) = V (Proc.devRef .tc main_arg1) := by rw [e3]; exact (keep_B_arg1 V2).trans a1_2
  have a4_3 : V3 (Proc.devRef .tc main_arg4) = V (Proc.devRef .tc main_arg4) := by rw [e3]; exact (keep_B_arg4 V2).trans a4_2
  have a5_3 : V3 (Proc.devRef .tc main_arg5) = V (Proc.devRef .tc main_arg5) := by rw [e3]; exact (keep_B_arg5 V2).trans a5_2
  -- after operations 64 to 70
  have h51_4 : V4 (Proc.devRef .tc main_v51) = Read.val_main_v51 (F := F) (V (Proc.devRef .tc main_arg1)) := by rw [e4]; exact c1_v51 V3 _ a1_3
  have h54_4 : V4 (Proc.devRef .tc main_v54) = Read.val_main_v54 (F := F) (V (Proc.devRef .tc main_arg1)) := by rw [e4]; exact c1_v54 V3 _ a1_3
  have h47_4 : V4 (Proc.devRef .tc main_v47) = Read.val_main_v47 (F := F) (V (Proc.devRef .tc main_arg0)) (V (Proc.devRef .tc main_arg1)) (V (Proc.devRef .tc main_arg2)) (V (Proc.devRef .tc main_arg3)) := by rw [e4]; exact (keep_C1_v47 V3).trans h47_3
  have a4_4 : V4 (Proc.devRef .tc main_arg4) = V (Proc.devRef .tc main_arg4) := by rw [e4]; exact (keep_C1_arg4 V3).trans a4_3
  have a5_4 : V4 (Proc.devRef .tc main_arg5) = V (Proc.devRef .tc main_arg5) := by rw [e4]; exact (keep_C1_arg5 V3).trans a5_3
  -- after operations 71 to 103
  have h77_5 : V5 (Proc.devRef .tc main_v77) = Read.val_main_v77 (F := F) (V (Proc.devRef .tc main_arg1)) := by rw [e5]; exact c2_v77 V4 _ h51_4 h54_4
  have h47_5 : V5 (Proc.devRef .tc main_v47) = Read.val_main_v47 (F := F) (V (Proc.devRef .tc main_arg0)) (V (Proc.devRef .tc main_arg1)) (V (Proc.devRef .tc main_arg2)) (V (Proc.devRef .tc main_arg3)) := by rw [e5]; exact (keep_C2_v47 V4).trans h47_4
  have h51_5 : V5 (Proc.devRef .tc main_v51) = Read.val_main_v51 (F := F) (V (Proc.devRef .tc main_arg1)) := by rw [e5]; exact (keep_C2_v51 V4).trans h51_4
  have h54_5 : V5 (Proc.devRef .tc main_v54) = Read.val_main_v54 (F := F) (V (Proc.devRef .tc main_arg1)) := by rw [e5]; exact (keep_C2_v54 V4).trans h54_4
  have a4_5 : V5 (Proc.devRef .tc main_arg4) = V (Proc.devRef .tc main_arg4) := by rw [e5]; exact (keep_C2_arg4 V4).trans a4_4
  have a5_5 : V5 (Proc.devRef .tc main_arg5) = V (Proc.devRef .tc main_arg5) := by rw [e5]; exact (keep_C2_arg5 V4).trans a5_4
  -- after operations 104 to 123, and the last fifteen
  have h94_6 : V6 (Proc.devRef .tc main_v94) = Read.val_main_v94 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    rw [e6]; exact tail_v94 V5 _ _ _ _ _ _ h47_5 h51_5 h54_5 h77_5 a4_5 a5_5
  rw [e]
  exact lsm_v95 V6 _ _ _ _ _ _ h94_6

/-! ## The arguments are never written -/

theorem keep_ops_arg0 (V : Valuation τ sig (Elt F)) :
    after (ops (F := F)) V (Proc.devRef .tc main_arg0) = V (Proc.devRef .tc main_arg0) := by
  after_results_simp

theorem keep_ops_arg1 (V : Valuation τ sig (Elt F)) :
    after (ops (F := F)) V (Proc.devRef .tc main_arg1) = V (Proc.devRef .tc main_arg1) := by
  after_results_simp

theorem keep_ops_arg2 (V : Valuation τ sig (Elt F)) :
    after (ops (F := F)) V (Proc.devRef .tc main_arg2) = V (Proc.devRef .tc main_arg2) := by
  after_results_simp

theorem keep_ops_arg3 (V : Valuation τ sig (Elt F)) :
    after (ops (F := F)) V (Proc.devRef .tc main_arg3) = V (Proc.devRef .tc main_arg3) := by
  after_results_simp

theorem keep_ops_arg4 (V : Valuation τ sig (Elt F)) :
    after (ops (F := F)) V (Proc.devRef .tc main_arg4) = V (Proc.devRef .tc main_arg4) := by
  after_results_simp

theorem keep_ops_arg5 (V : Valuation τ sig (Elt F)) :
    after (ops (F := F)) V (Proc.devRef .tc main_arg5) = V (Proc.devRef .tc main_arg5) := by
  after_results_simp

/-! ## The run -/

/-- Every weakly fair execution of the reference's @main terminates with the result buffer at the layered value of the
    six launch arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Read.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (after_ops_v95 (launchContents m c)),
      (h c main_arg0).trans (keep_ops_arg0 (launchContents m c)), (h c main_arg1).trans (keep_ops_arg1 (launchContents m c)),
      (h c main_arg2).trans (keep_ops_arg2 (launchContents m c)), (h c main_arg3).trans (keep_ops_arg3 (launchContents m c)),
      (h c main_arg4).trans (keep_ops_arg4 (launchContents m c)), (h c main_arg5).trans (keep_ops_arg5 (launchContents m c))⟩)
    (run_seq scopedRefs_eq scopedSems_eq defs main (fun _ => ops) main_eq (fun _ => ops_sub) m ρ)

end Cert.ReferenceIdeal.RunStages

end
-- ==== Proof.lean ====
/-
  A two-layer graph convolution with a row-wise log-softmax: the Pallas program against its jnp reference, over the
  extended reals.

  Both programs add a self-loop to every node, normalise each edge by the inverse square roots of its ends' degrees, and
  per layer transform the node rows by a weight matrix, sum the scaled rows of every node's in-neighbours and add a bias;
  layer one ends in a rectifier, layer two in a log-softmax along each row. The sparse part (degrees, normalisation,
  gathers and neighbourhood sums) is the same host text in both programs and is never opened; the kernel computes the four
  dense stages in row blocks of 5000 on the TensorCore, the reference with whole-array host operations. At the ideal
  instance a narrowing to bf16 is the identity, a product into a zero accumulator is the plain sum over the contracted
  index, and a row's maximum or sum does not depend on the order of its folding, so block by block the kernel's dense
  stages are the reference's, and the two results are one function of the six arguments. No finiteness is used: no
  algebraic law beyond the commutativity and associativity of + and max enters.

  `frame_Kernel` and `frame_KernelIdeal` are the generated frame certificates; `frame_ReferenceIdeal` is the
  reference's run with its result dropped; `preserves` has no ledger entry; `algebraic` pairs the kernel's run, read at
  its result buffer and walked stretch by stretch to the reference's last stage (Proof/KernelValue.lean), with the
  reference's run read stage by stage (Proof/RefRunStages.lean).
-/
import proofs.«135939_j43782896616158_1_alg».proof.Defs
import proofs.«135939_j43782896616158_1_alg».proof.Proof.Gen.Kernel
import proofs.«135939_j43782896616158_1_alg».proof.Proof.Gen.Kernel.Skeleton
import proofs.«135939_j43782896616158_1_alg».proof.Proof.Gen.Kernel.Launch
import proofs.«135939_j43782896616158_1_alg».proof.Proof.Gen.Kernel.Points
import proofs.«135939_j43782896616158_1_alg».proof.Proof.Gen.Kernel.Frame
import proofs.«135939_j43782896616158_1_alg».proof.Proof.Gen.KernelIdeal
import proofs.«135939_j43782896616158_1_alg».proof.Proof.Gen.KernelIdeal.Skeleton
import proofs.«135939_j43782896616158_1_alg».proof.Proof.Gen.KernelIdeal.Launch
import proofs.«135939_j43782896616158_1_alg».proof.Proof.Gen.KernelIdeal.Points
import proofs.«135939_j43782896616158_1_alg».proof.Proof.Gen.KernelIdeal.Frame
import proofs.«135939_j43782896616158_1_alg».proof.Proof.Gen.ReferenceIdeal
import proofs.«135939_j43782896616158_1_alg».proof.Proof.Gen.Pre_finite_inputs
import proofs.«135939_j43782896616158_1_alg».proof.Proof.KernelRun
import proofs.«135939_j43782896616158_1_alg».proof.Proof.KernelValue
import proofs.«135939_j43782896616158_1_alg».proof.Proof.RefRunStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RunStages.run (F := Ideal) m ρ)

/-- The ideal pass rewrote nothing. -/
theorem preserves : Cert.preserves_Kernel_KernelIdeal := trivial

/-- Both programs end with the reference's last stage of the six arguments in their result buffers. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RunStages.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
